-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x128 : Shape := ⟨3, ![8, 1024, 128]⟩
abbrev S8x1024x64 : Shape := ⟨3, ![8, 1024, 64]⟩
abbrev S8x1024x64x50 : Shape := ⟨4, ![8, 1024, 64, 50]⟩
abbrev S50x128 : Shape := ⟨2, ![50, 128]⟩
abbrev S128 : Shape := ⟨1, ![128]⟩
abbrev S128x128 : Shape := ⟨2, ![128, 128]⟩
abbrev S_ : Shape := ⟨0, ![]⟩

class Facts : Prop where
  bcast_S_S8x1024x128 : S_.BroadcastsInDim S8x1024x128 (![] : Fin 0 → Fin S8x1024x128.rank)
  reducesTo_S8x1024x128_S_d0_1_2 : S8x1024x128.ReducesTo [0, 1, 2] S_
  h_S_ : 0 < S_.numel
  bcast_S_S8x1024x64 : S_.BroadcastsInDim S8x1024x64 (![] : Fin 0 → Fin S8x1024x64.rank)
  reducesTo_S8x1024x64_S_d0_1_2 : S8x1024x64.ReducesTo [0, 1, 2] S_
  bcast_S_S8x1024x64x50 : S_.BroadcastsInDim S8x1024x64x50 (![] : Fin 0 → Fin S8x1024x64x50.rank)
  reducesTo_S8x1024x64x50_S_d0_1_2_3 : S8x1024x64x50.ReducesTo [0, 1, 2, 3] S_
  bcast_S_S50x128 : S_.BroadcastsInDim S50x128 (![] : Fin 0 → Fin S50x128.rank)
  reducesTo_S50x128_S_d0_1 : S50x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg2 : IVec S8x1024x64 32) (main_v48 : IVec S_ 1) (main_v50 : IVec S8x1024x64 1) : IVec S_ 1 :=
  let main_c_19 : IVec S_ 1 := constantI S_ 1 1#1
  let main_v51 : IVec S_ 1 := (fun x v => Host.reduce IntOp.andi x v reducesTo_S8x1024x64_S_d0_1_2 h_S_) main_v50 main_c_19
  let main_v52 : IVec S_ 1 := andi main_v48 main_v51
  let main_c_20 : IVec S_ 32 := constantI S_ 32 1024#32
  let main_v53 : IVec S8x1024x64 32 := broadcastInDim S8x1024x64 ![] bcast_S_S8x1024x64 main_c_20
  let main_v54 : IVec S8x1024x64 1 := cmpi .slt main_arg2 main_v53
  let main_c_21 : IVec S_ 1 := constantI S_ 1 1#1
  let main_v55 : IVec S_ 1 := (fun x v => Host.reduce IntOp.andi x v reducesTo_S8x1024x64_S_d0_1_2 h_S_) main_v54 main_c_21
  let main_v56 : IVec S_ 1 := andi main_v52 main_v55
  main_v56

def fn_part2 {F : FTy → Type} [FloatOps F] (main_arg2 : IVec S8x1024x64 32) (main_arg8 : FVec F S128x128 .f32) (main_arg9 : FVec F S128x128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_c_18 : IVec S_ 32 := constantI S_ 32 0#32
  let main_v49 : IVec S8x1024x64 32 := broadcastInDim S8x1024x64 ![] bcast_S_S8x1024x64 main_c_18
  let main_v50 : IVec S8x1024x64 1 := cmpi .sge main_arg2 main_v49
  fn_part3 (F := F) main_arg2 main_v48 main_v50

def fn_part1 {F : FTy → Type} [FloatOps F] (main_arg2 : IVec S8x1024x64 32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S50x128 1) : IVec S_ 1 :=
  let main_c_5 : IVec S_ 1 := constantI S_ 1 1#1
  let main_v17 : IVec S_ 1 := (fun x v => Host.reduce IntOp.andi x v reducesTo_S50x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_v33

def fn {F : FTy → Type} [FloatOps F] (main_arg0 : FVec F S8x1024x128 .f32) (main_arg1 : FVec F S8x1024x64 .f32) (main_arg2 : IVec S8x1024x64 32) (main_arg3 : FVec F S8x1024x64x50 .f32) (main_arg4 : FVec F S50x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S8x1024x128 .f32 := Host.absf main_arg0
  let main_cst : FVec F S_ .f32 := constant S_ .f32 0x7F800000#32
  let main_v1 : FVec F S8x1024x128 .f32 := broadcastInDim S8x1024x128 ![] bcast_S_S8x1024x128 main_cst
  let main_v2 : IVec S8x1024x128 1 := cmpf .olt main_v0 main_v1
  let main_c : IVec S_ 1 := constantI S_ 1 1#1
  let main_v3 : IVec S_ 1 := (fun x v => Host.reduce IntOp.andi x v reducesTo_S8x1024x128_S_d0_1_2 h_S_) main_v2 main_c
  let main_v4 : FVec F S8x1024x64 .f32 := Host.absf main_arg1
  let main_cst_0 : FVec F S_ .f32 := constant S_ .f32 0x7F800000#32
  let main_v5 : FVec F S8x1024x64 .f32 := broadcastInDim S8x1024x64 ![] bcast_S_S8x1024x64 main_cst_0
  let main_v6 : IVec S8x1024x64 1 := cmpf .olt main_v4 main_v5
  let main_c_1 : IVec S_ 1 := constantI S_ 1 1#1
  let main_v7 : IVec S_ 1 := (fun x v => Host.reduce IntOp.andi x v reducesTo_S8x1024x64_S_d0_1_2 h_S_) main_v6 main_c_1
  let main_v8 : IVec S_ 1 := andi main_v3 main_v7
  let main_v9 : FVec F S8x1024x64x50 .f32 := Host.absf main_arg3
  let main_cst_2 : FVec F S_ .f32 := constant S_ .f32 0x7F800000#32
  let main_v10 : FVec F S8x1024x64x50 .f32 := broadcastInDim S8x1024x64x50 ![] bcast_S_S8x1024x64x50 main_cst_2
  let main_v11 : IVec S8x1024x64x50 1 := cmpf .olt main_v9 main_v10
  let main_c_3 : IVec S_ 1 := constantI S_ 1 1#1
  let main_v12 : IVec S_ 1 := (fun x v => Host.reduce IntOp.andi x v reducesTo_S8x1024x64x50_S_d0_1_2_3 h_S_) main_v11 main_c_3
  let main_v13 : IVec S_ 1 := andi main_v8 main_v12
  let main_v14 : FVec F S50x128 .f32 := Host.absf main_arg4
  let main_cst_4 : FVec F S_ .f32 := constant S_ .f32 0x7F800000#32
  let main_v15 : FVec F S50x128 .f32 := broadcastInDim S50x128 ![] bcast_S_S50x128 main_cst_4
  let main_v16 : IVec S50x128 1 := cmpf .olt main_v14 main_v15
  fn_part1 (F := F) main_arg2 main_arg5 main_arg6 main_arg7 main_arg8 main_arg9 main_arg10 main_v13 main_v16
-- ==== Kernel.lean ====
abbrev S8x1024x128 : Shape := ⟨3, ![8, 1024, 128]⟩
abbrev S8x1024x64 : Shape := ⟨3, ![8, 1024, 64]⟩
abbrev S8x1024x64x50 : Shape := ⟨4, ![8, 1024, 64, 50]⟩
abbrev S50x128 : Shape := ⟨2, ![50, 128]⟩
abbrev S128 : Shape := ⟨1, ![128]⟩
abbrev S128x128 : Shape := ⟨2, ![128, 128]⟩
abbrev S8x1024x64x1 : Shape := ⟨4, ![8, 1024, 64, 1]⟩
abbrev S1x1024x128 : Shape := ⟨3, ![1, 1024, 128]⟩
abbrev S1x64x64x1 : Shape := ⟨4, ![1, 64, 64, 1]⟩
abbrev S1x64x64x50 : Shape := ⟨4, ![1, 64, 64, 50]⟩
abbrev S1x64x128 : Shape := ⟨3, ![1, 64, 128]⟩
abbrev S1024x128 : Shape := ⟨2, ![1024, 128]⟩
abbrev S64x64x50 : Shape := ⟨3, ![64, 64, 50]⟩
abbrev S4096x50 : Shape := ⟨2, ![4096, 50]⟩
abbrev S4096x128 : Shape := ⟨2, ![4096, 128]⟩
abbrev S1x128 : Shape := ⟨2, ![1, 128]⟩
abbrev S64x64x1 : Shape := ⟨3, ![64, 64, 1]⟩
abbrev S64x64x1024 : Shape := ⟨3, ![64, 64, 1024]⟩
abbrev S4096x1024 : Shape := ⟨2, ![4096, 1024]⟩
abbrev S64x64x128 : Shape := ⟨3, ![64, 64, 128]⟩
abbrev S64x128 : Shape := ⟨2, ![64, 128]⟩

abbrev nBuf : Space → Nat
  | .hbm => 14
  | .vmem => 18
  | .smem => 0
  | _ => 0

abbrev bufTy : (tb : Table) → Fin (tcTables nBuf tb) → BufTy
  | .hbm, ⟨0, _⟩ => ⟨S8x1024x128, .f32⟩
  | .hbm, ⟨1, _⟩ => ⟨S8x1024x64, .f32⟩
  | .hbm, ⟨2, _⟩ => ⟨S8x1024x64, .i32⟩
  | .hbm, ⟨3, _⟩ => ⟨S8x1024x64x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S8x1024x64x1, .i32⟩
  | .hbm, ⟨12, _⟩ => ⟨S8x1024x64x1, .f32⟩
  | .hbm, ⟨13, _⟩ => ⟨S8x1024x128, .f32⟩
  | .local _ .vmem, ⟨0, _⟩ => ⟨S1x1024x128, .f32⟩
  | .local _ .vmem, ⟨1, _⟩ => ⟨S1x1024x128, .f32⟩
  | .local _ .vmem, ⟨2, _⟩ => ⟨S1x64x64x1, .i32⟩
  | .local _ .vmem, ⟨3, _⟩ => ⟨S1x64x64x1, .i32⟩
  | .local _ .vmem, ⟨4, _⟩ => ⟨S1x64x64x50, .f32⟩
  | .local _ .vmem, ⟨5, _⟩ => ⟨S1x64x64x50, .f32⟩
  | .local _ .vmem, ⟨6, _⟩ => ⟨S1x64x64x1, .f32⟩
  | .local _ .vmem, ⟨7, _⟩ => ⟨S1x64x64x1, .f32⟩
  | .local _ .vmem, ⟨8, _⟩ => ⟨S50x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S1x64x128, .f32⟩
  | .local _ .vmem, ⟨16, _⟩ => ⟨S1x64x128, .f32⟩
  | .local _ .vmem, ⟨17, _⟩ => ⟨S1024x128, .f32⟩
  | _, _ => ⟨S8x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x64x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S50x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

class Facts₀ : Prop where
  bcast_S8x1024x64_S8x1024x64x1_0_1_2 : S8x1024x64.BroadcastsInDim S8x1024x64x1 (![0, 1, 2] : Fin 3 → Fin S8x1024x64x1.rank)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x64x64x50_S1x64x64x50_0_0_0_0 : ∀ a, (![0, 0, 0, 0] : Fin 4 → Nat) a + S1x64x64x50.size a ≤ S1x64x64x50.size a
  h_S1x64x64x50 : 0 < S1x64x64x50.numel
  shapeCasts_S1x64x64x50_S64x64x50 : S1x64x64x50.ShapeCasts S64x64x50
  shapeCasts_S64x64x50_S4096x50 : S64x64x50.ShapeCasts S4096x50
  inb_S50x128_S50x128_0_0 : ∀ a, (![0, 0] : Fin 2 → Nat) a + S50x128.size a ≤ S50x128.size a
  h_S50x128 : 0 < S50x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S1x64x64x1_S1x64x64x1_0_0_0_0 : ∀ a, (![0, 0, 0, 0] : Fin 4 → Nat) a + S1x64x64x1.size a ≤ S1x64x64x1.size a
  h_S1x64x64x1 : 0 < S1x64x64x1.numel
  shapeCasts_S1x64x64x1_S64x64x1 : S1x64x64x1.ShapeCasts S64x64x1
  iota_S64x64x1024_d2_w32 : S64x64x1024.Iotas .tc 32 [2]
  broadcasts_S64x64x1_S64x64x1024 : S64x64x1.Broadcasts S64x64x1024
  natLt_1_32 : 1 < 32
  shapeCasts_S64x64x1024_S4096x1024 : S64x64x1024.ShapeCasts S4096x1024
  shapeCasts_S4096x128_S64x64x128 : S4096x128.ShapeCasts S64x64x128
  broadcasts_S64x64x1_S64x64x128 : S64x64x1.Broadcasts S64x64x128
  reduces_S64x64x128_S64x128 : S64x64x128.Reduces [1] S64x128
  broadcasts_S1x128_S64x128 : S1x128.Broadcasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  dot_S1024x128_S128x128_S1024x128_1_0_0_1_n_n_wf : DotDims.WF S1024x128 S128x128 S1024x128 [1] [0] [0] [1] [] []
  dot_S4096x50_S50x128_S4096x128_1_0_0_1_n_n_wf : DotDims.WF S4096x50 S50x128 S4096x128 [1] [0] [0] [1] [] []
  dot_S4096x128_S128x128_S4096x128_1_0_0_1_n_n_wf : DotDims.WF S4096x128 S128x128 S4096x128 [1] [0] [0] [1] [] []
  dot_S4096x1024_S1024x128_S4096x128_1_0_0_1_n_n_wf : DotDims.WF S4096x1024 S1024x128 S4096x128 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S8x1024x128.size a
  hwx0_0 : ∀ i : grid0.Coords, EltTy.bits .f32 = 32 ∨ (Rect.block (s := S8x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64x1.size a ≤ S8x1024x64x1.size a
  hwx0_1 : ∀ i : grid0.Coords, EltTy.bits .i32 = 32 ∨ (Rect.block (s := S8x1024x64x1) S1x64x64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64x50.size a ≤ S8x1024x64x50.size a
  hwx0_2 : ∀ i : grid0.Coords, EltTy.bits .f32 = 32 ∨ (Rect.block (s := S8x1024x64x50) S1x64x64x50.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x64x1.size a ≤ S8x1024x64x1.size a
  hwx0_3 : ∀ i : grid0.Coords, EltTy.bits .f32 = 32 ∨ (Rect.block (s := S8x1024x64x1) S1x64x64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x128.size a ≤ S50x128.size a
  hwx0_4 : ∀ i : grid0.Coords, EltTy.bits .f32 = 32 ∨ (Rect.block (s := S50x128) S50x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x64x128.size a ≤ S8x1024x128.size a
  hwx0_11 : ∀ i : grid0.Coords, EltTy.bits .f32 = 32 ∨ (Rect.block (s := S8x1024x128) S1x64x128.size (cc0_transform_11 i) (hinb0_11 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S4096x50_S50x128_S4096x128_1_0_0_1_n_n : DotDims S4096x50 S50x128 S4096x128 where
  lhsContracting := [1]
  rhsContracting := [0]
  lhsNonContracting := [0]
  rhsNonContracting := [1]
  lhsBatch := []
  rhsBatch := []
  wf := dot_S4096x50_S50x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x64x64x50.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64x64x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S50x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2) S1x64x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x1024x128 : Shape := ⟨3, ![8, 1024, 128]⟩
abbrev S8x1024x64 : Shape := ⟨3, ![8, 1024, 64]⟩
abbrev S8x1024x64x50 : Shape := ⟨4, ![8, 1024, 64, 50]⟩
abbrev S50x128 : Shape := ⟨2, ![50, 128]⟩
abbrev S128 : Shape := ⟨1, ![128]⟩
abbrev S128x128 : Shape := ⟨2, ![128, 128]⟩
abbrev S8x1024x64x128 : Shape := ⟨4, ![8, 1024, 64, 128]⟩
abbrev S1x1x1x128 : Shape := ⟨4, ![1, 1, 1, 128]⟩
abbrev S_ : Shape := ⟨0, ![]⟩
abbrev S8x65536x1 : Shape := ⟨3, ![8, 65536, 1]⟩
abbrev S1 : Shape := ⟨1, ![1]⟩
abbrev S1x1x1 : Shape := ⟨3, ![1, 1, 1]⟩
abbrev S8x65536 : Shape := ⟨2, ![8, 65536]⟩
abbrev S8x65536x128 : Shape := ⟨3, ![8, 65536, 128]⟩
abbrev S8x1024x64x1 : Shape := ⟨4, ![8, 1024, 64, 1]⟩
abbrev S1x1x128 : Shape := ⟨3, ![1, 1, 128]⟩

abbrev nBuf : Space → Nat
  | .hbm => 88
  | .vmem => 0
  | .smem => 0
  | _ => 0

abbrev bufTy : (tb : Table) → Fin (tcTables nBuf tb) → BufTy
  | .hbm, ⟨0, _⟩ => ⟨S8x1024x128, .f32⟩
  | .hbm, ⟨1, _⟩ => ⟨S8x1024x64, .f32⟩
  | .hbm, ⟨2, _⟩ => ⟨S8x1024x64, .i32⟩
  | .hbm, ⟨3, _⟩ => ⟨S8x1024x64x50, .f32⟩
  | .hbm, ⟨4, _⟩ => ⟨S50x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S8x1024x64x128, .f32⟩
  | .hbm, ⟨12, _⟩ => ⟨S1x1x1x128, .f32⟩
  | .hbm, ⟨13, _⟩ => ⟨S8x1024x64x128, .f32⟩
  | .hbm, ⟨14, _⟩ => ⟨S8x1024x64x128, .f32⟩
  | .hbm, ⟨15, _⟩ => ⟨S_, .f32⟩
  | .hbm, ⟨16, _⟩ => ⟨S8x1024x64x128, .f32⟩
  | .hbm, ⟨17, _⟩ => ⟨S8x1024x64x128, .f32⟩
  | .hbm, ⟨18, _⟩ => ⟨S8x1024x64x128, .f32⟩
  | .hbm, ⟨19, _⟩ => ⟨S8x1024x64x128, .f32⟩
  | .hbm, ⟨20, _⟩ => ⟨S8x1024x64x128, .i1⟩
  | .hbm, ⟨21, _⟩ => ⟨S8x1024x64x128, .f32⟩
  | .hbm, ⟨22, _⟩ => ⟨S8x1024x64x128, .f32⟩
  | .hbm, ⟨23, _⟩ => ⟨S8x1024x64x128, .f32⟩
  | .hbm, ⟨24, _⟩ => ⟨S8x1024x64x128, .f32⟩
  | .hbm, ⟨25, _⟩ => ⟨S8x1024x64x128, .f32⟩
  | .hbm, ⟨26, _⟩ => ⟨S8x1024x64x128, .f32⟩
  | .hbm, ⟨27, _⟩ => ⟨S8x1024x64x128, .f32⟩
  | .hbm, ⟨28, _⟩ => ⟨S8x1024x64x128, .f32⟩
  | .hbm, ⟨29, _⟩ => ⟨S_, .f32⟩
  | .hbm, ⟨30, _⟩ => ⟨S8x1024x64x128, .f32⟩
  | .hbm, ⟨31, _⟩ => ⟨S8x1024x64x128, .f32⟩
  | .hbm, ⟨32, _⟩ => ⟨S8x1024x64x128, .f32⟩
  | .hbm, ⟨33, _⟩ => ⟨S1x1x1x128, .f32⟩
  | .hbm, ⟨34, _⟩ => ⟨S8x1024x64x128, .f32⟩
  | .hbm, ⟨35, _⟩ => ⟨S8x1024x64x128, .f32⟩
  | .hbm, ⟨36, _⟩ => ⟨S8x65536x1, .i32⟩
  | .hbm, ⟨37, _⟩ => ⟨S_, .i32⟩
  | .hbm, ⟨38, _⟩ => ⟨S8x65536x1, .i32⟩
  | .hbm, ⟨39, _⟩ => ⟨S8x65536x1, .i1⟩
  | .hbm, ⟨40, _⟩ => ⟨S_, .i32⟩
  | .hbm, ⟨41, _⟩ => ⟨S8x65536x1, .i32⟩
  | .hbm, ⟨42, _⟩ => ⟨S8x65536x1, .i32⟩
  | .hbm, ⟨43, _⟩ => ⟨S8x65536x1, .i32⟩
  | .hbm, ⟨44, _⟩ => ⟨S1, .i32⟩
  | .hbm, ⟨45, _⟩ => ⟨S_, .i32⟩
  | .hbm, ⟨46, _⟩ => ⟨S8x65536x1, .i32⟩
  | .hbm, ⟨47, _⟩ => ⟨S8x65536x1, .i1⟩
  | .hbm, ⟨48, _⟩ => ⟨S1x1x1, .i32⟩
  | .hbm, ⟨49, _⟩ => ⟨S8x65536x1, .i32⟩
  | .hbm, ⟨50, _⟩ => ⟨S8x65536x1, .i1⟩
  | .hbm, ⟨51, _⟩ => ⟨S8x65536x1, .i1⟩
  | .hbm, ⟨52, _⟩ => ⟨S_, .i1⟩
  | .hbm, ⟨53, _⟩ => ⟨S8x65536, .i1⟩
  | .hbm, ⟨54, _⟩ => ⟨S8x65536x128, .f32⟩
  | .hbm, ⟨55, _⟩ => ⟨S8x65536x128, .i1⟩
  | .hbm, ⟨56, _⟩ => ⟨S_, .f32⟩
  | .hbm, ⟨57, _⟩ => ⟨S8x65536x128, .f32⟩
  | .hbm, ⟨58, _⟩ => ⟨S8x65536x128, .f32⟩
  | .hbm, ⟨59, _⟩ => ⟨S8x1024x64x128, .f32⟩
  | .hbm, ⟨60, _⟩ => ⟨S8x1024x64x128, .f32⟩
  | .hbm, ⟨61, _⟩ => ⟨S8x1024x64x128, .f32⟩
  | .hbm, ⟨62, _⟩ => ⟨S8x1024x64x1, .f32⟩
  | .hbm, ⟨63, _⟩ => ⟨S8x1024x64x128, .f32⟩
  | .hbm, ⟨64, _⟩ => ⟨S8x1024x64x128, .f32⟩
  | .hbm, ⟨65, _⟩ => ⟨S_, .f32⟩
  | .hbm, ⟨66, _⟩ => ⟨S8x1024x128, .f32⟩
  | .hbm, ⟨67, _⟩ => ⟨S8x1024x128, .f32⟩
  | .hbm, ⟨68, _⟩ => ⟨S1x1x128, .f32⟩
  | .hbm, ⟨69, _⟩ => ⟨S8x1024x128, .f32⟩
  | .hbm, ⟨70, _⟩ => ⟨S8x1024x128, .f32⟩
  | .hbm, ⟨71, _⟩ => ⟨S_, .f32⟩
  | .hbm, ⟨72, _⟩ => ⟨S8x1024x128, .f32⟩
  | .hbm, ⟨73, _⟩ => ⟨S8x1024x128, .f32⟩
  | .hbm, ⟨74, _⟩ => ⟨S8x1024x128, .f32⟩
  | .hbm, ⟨75, _⟩ => ⟨S8x1024x128, .f32⟩
  | .hbm, ⟨76, _⟩ => ⟨S8x1024x128, .i1⟩
  | .hbm, ⟨77, _⟩ => ⟨S8x1024x128, .f32⟩
  | .hbm, ⟨78, _⟩ => ⟨S8x1024x128, .f32⟩
  | .hbm, ⟨79, _⟩ => ⟨S8x1024x128, .f32⟩
  | .hbm, ⟨80, _⟩ => ⟨S8x1024x128, .f32⟩
  | .hbm, ⟨81, _⟩ => ⟨S8x1024x128, .f32⟩
  | .hbm, ⟨82, _⟩ => ⟨S8x1024x128, .f32⟩
  | .hbm, ⟨83, _⟩ => ⟨S8x1024x128, .f32⟩
  | .hbm, ⟨84, _⟩ => ⟨S8x1024x128, .f32⟩
  | .hbm, ⟨85, _⟩ => ⟨S_, .f32⟩
  | .hbm, ⟨86, _⟩ => ⟨S8x1024x128, .f32⟩
  | .hbm, ⟨87, _⟩ => ⟨S8x1024x128, .f32⟩
  | _, _ => ⟨S8x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v4 : Ref sig .tc := ⟨.hbm, 28, rfl⟩
abbrev main_cst : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_c_1 : Ref sig .tc := ⟨.hbm, 44, rfl⟩
abbrev main_call1_c_2 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_c_3 : Ref sig .tc := ⟨.hbm, 52, rfl⟩
abbrev main_call1_v11 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_cst_0 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_call2_cst : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_v24 : Ref sig .tc := ⟨.hbm, 84, rfl⟩
abbrev main_cst_1 : Ref sig .tc := ⟨.hbm, 85, rfl⟩
abbrev main_v25 : Ref sig .tc := ⟨.hbm, 86, rfl⟩
abbrev main_v26 : Ref sig .tc := ⟨.hbm, 87, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S8x1024x64x128_0_1_2_3 : S1x1x1x128.BroadcastsInDim S8x1024x64x128 (![0, 1, 2, 3] : Fin 4 → Fin S8x1024x64x128.rank)
  bcast_S_S8x1024x64x128 : S_.BroadcastsInDim S8x1024x64x128 (![] : Fin 0 → Fin S8x1024x64x128.rank)
  shapeCasts_S8x1024x64_S8x65536x1 : S8x1024x64.ShapeCasts S8x65536x1
  bcast_S_S8x65536x1 : S_.BroadcastsInDim S8x65536x1 (![] : Fin 0 → Fin S8x65536x1.rank)
  bcast_S1_S1x1x1_2 : S1.BroadcastsInDim S1x1x1 (![2] : Fin 1 → Fin S1x1x1.rank)
  bcast_S1x1x1_S8x65536x1_0_1_2 : S1x1x1.BroadcastsInDim S8x65536x1 (![0, 1, 2] : Fin 3 → Fin S8x65536x1.rank)
  reducesTo_S8x65536x1_S8x65536_d2 : S8x65536x1.ReducesTo [2] S8x65536
  h_S_ : 0 < S_.numel
  bcast_S8x65536_S8x65536x128_0_1 : S8x65536.BroadcastsInDim S8x65536x128 (![0, 1] : Fin 2 → Fin S8x65536x128.rank)
  bcast_S_S8x65536x128 : S_.BroadcastsInDim S8x65536x128 (![] : Fin 0 → Fin S8x65536x128.rank)
  shapeCasts_S8x65536x128_S8x1024x64x128 : S8x65536x128.ShapeCasts S8x1024x64x128
  bcast_S8x1024x64_S8x1024x64x1_0_1_2 : S8x1024x64.BroadcastsInDim S8x1024x64x1 (![0, 1, 2] : Fin 3 → Fin S8x1024x64x1.rank)
  bcast_S8x1024x64x1_S8x1024x64x128_0_1_2_3 : S8x1024x64x1.BroadcastsInDim S8x1024x64x128 (![0, 1, 2, 3] : Fin 4 → Fin S8x1024x64x128.rank)
  reducesTo_S8x1024x64x128_S8x1024x128_d2 : S8x1024x64x128.ReducesTo [2] S8x1024x128
  bcast_S128_S1x1x128_2 : S128.BroadcastsInDim S1x1x128 (![2] : Fin 1 → Fin S1x1x128.rank)
  bcast_S1x1x128_S8x1024x128_0_1_2 : S1x1x128.BroadcastsInDim S8x1024x128 (![0, 1, 2] : Fin 3 → Fin S8x1024x128.rank)
  bcast_S_S8x1024x128 : S_.BroadcastsInDim S8x1024x128 (![] : Fin 0 → Fin S8x1024x128.rank)
  dot_S8x1024x64x50_S50x128_S8x1024x64x128_3_0_012_1_n_n_wf : DotDims.WF S8x1024x64x50 S50x128 S8x1024x64x128 [3] [0] [0, 1, 2] [1] [] []
  dot_S8x1024x64x128_S128x128_S8x1024x64x128_3_0_012_1_n_n_wf : DotDims.WF S8x1024x64x128 S128x128 S8x1024x64x128 [3] [0] [0, 1, 2] [1] [] []
  gather_S8x1024x128_S8x65536x1_S8x65536x128_2_1_0_0_1_2_11128_wf : GatherDims.WF S8x1024x128 S8x65536x1 S8x65536x128 [2] [1] [0] [1] [0] 2 ![1, 1, 128]
  dot_S8x1024x128_S128x128_S8x1024x128_2_0_01_1_n_n_wf : DotDims.WF S8x1024x128 S128x128 S8x1024x128 [2] [0] [0, 1] [1] [] []

variable [Facts₀]

def dot_S8x1024x64x50_S50x128_S8x1024x64x128_3_0_012_1_n_n : DotDims S8x1024x64x50 S50x128 S8x1024x64x128 where
  lhsContracting := [3]
  rhsContracting := [0]
  lhsNonContracting := [0, 1, 2]
  rhsNonContracting := [1]
  lhsBatch := []
  rhsBatch := []
  wf := dot_S8x1024x64x50_S50x128_S8x1024x64x128_3_0_012_1_n_n_wf
def dot_S8x1024x64x128_S128x128_S8x1024x64x128_3_0_012_1_n_n : DotDims S8x1024x64x128 S128x128 S8x1024x64x128 where
  lhsContracting := [3]
  rhsContracting := [0]
  lhsNonContracting := [0, 1, 2]
  rhsNonContracting := [1]
  lhsBatch := []
  rhsBatch := []
  wf := dot_S8x1024x64x128_S128x128_S8x1024x64x128_3_0_012_1_n_n_wf
def gather_S8x1024x128_S8x65536x1_S8x65536x128_2_1_0_0_1_2_11128 : GatherDims S8x1024x128 S8x65536x1 S8x65536x128 where
  offsetDims := [2]
  collapsedSliceDims := [1]
  operandBatchingDims := [0]
  startIndicesBatchingDims := [0]
  startIndexMap := [1]
  indexVectorDim := 2
  sliceSizes := ![1, 1, 128]
  wf := gather_S8x1024x128_S8x65536x1_S8x65536x128_2_1_0_0_1_2_11128_wf
def dot_S8x1024x128_S128x128_S8x1024x128_2_0_01_1_n_n : DotDims S8x1024x128 S128x128 S8x1024x128 where
  lhsContracting := [2]
  rhsContracting := [0]
  lhsNonContracting := [0, 1]
  rhsNonContracting := [1]
  lhsBatch := []
  rhsBatch := []
  wf := dot_S8x1024x128_S128x128_S8x1024x128_2_0_01_1_n_n_wf

class Facts : Prop extends Facts₀ where

variable [Facts]
-- ==== Proof.PreRange.lean ====
/-
  The neighbour words are in range. The precondition `finite_inputs` ends in the two conjuncts
  `all (neighbors ≥ 0)` and `all (neighbors < 1024)`, signed comparisons of every neighbour word against a
  broadcast constant, each folded by `and` over the whole array and joined onto the finiteness conjuncts by `and`.
  When the precondition is all ones both folds are 1, so at every index j the word w = neighbors[j] has
  0 ≤ w (signed) and w < 1024 (signed). A 32-bit word whose signed value is non-negative has its signed value equal to
  its unsigned value, so w's unsigned value is below 1024, and w is the word of that number.
-/
import proofs.«408758_j22007412425372_2_alg».proof.Proof.Gen.Pre_finite_inputs
import Idealize.ShloMosaic.PureOps.Ideal.Laws
import Idealize.ShloMosaic.Lib.ValueIdx
import Idealize.ShloMosaic.Lib.ReduceAll
import Idealize.ShloMosaic.Lib.StableHlo.Predicate

noncomputable section

namespace Cert.CFConv.PreRange
open Idealize.ShloMosaic Idealize.ShloMosaic.ValueIdx

/-- The scalar shape has one index. -/
instance subsingleton_scalar_idx : Subsingleton Cert.Pre_finite_inputs.S_.Idx := ⟨fun _ _ => funext fun a => a.elim0⟩

/-- An elementwise `and` of two arrays, read at an index. -/
theorem andi_at {s : Shape} {w : Nat} (x y : IVec s w) (i : s.Idx) : andi x y i = IntOp.andi (x i) (y i) := rfl

/-- An elementwise comparison of two arrays, read at an index. -/
theorem cmpi_at {s : Shape} {w : Nat} (p : CmpIPredicate) (x y : IVec s w) (i : s.Idx) :
    cmpi p x y i = IntOp.cmpi p (x i) (y i) := rfl

/-- A 32-bit word that is ≥ 0 and < 1024 as a signed number is the word of a number below 1024. -/
theorem word_in_range (w : BitVec 32) (h0 : IntOp.cmpi .sge w 0#32 = 1#1) (h1 : IntOp.cmpi .slt w 1024#32 = 1#1) :
    ∃ k : Fin 1024, w = BitVec.ofNat 32 k.val := by
  rw [IntOp.cmpi_sge] at h0
  rw [IntOp.cmpi_slt] at h1
  have z0 : (0#32 : BitVec 32).toInt = 0 := by decide
  have z1 : (1024#32 : BitVec 32).toInt = 1024 := by decide
  rw [z0] at h0
  rw [z1] at h1
  have hlt := w.isLt
  rw [BitVec.toInt_eq_toNat_cond] at h0 h1
  have hn : w.toNat < 1024 := by
    split at h0 <;> split at h1 <;> omega
  refine ⟨⟨w.toNat, hn⟩, ?_⟩
  apply BitVec.eq_of_toNat_eq
  show w.toNat = (BitVec.ofNat 32 w.toNat).toNat
  rw [BitVec.toNat_ofNat]
  omega

theorem nbr_in_range [hP : Cert.Pre_finite_inputs.Facts]
    (x0 : FVec Ideal ⟨3, ![8, 1024, 128]⟩ .f32) (x1 : FVec Ideal ⟨3, ![8, 1024, 64]⟩ .f32) (x2 : IVec ⟨3, ![8, 1024, 64]⟩ 32)
    (x3 : FVec Ideal ⟨4, ![8, 1024, 64, 50]⟩ .f32) (x4 : FVec Ideal ⟨2, ![50, 128]⟩ .f32) (x5 : FVec Ideal ⟨1, ![128]⟩ .f32)
    (x6 : FVec Ideal ⟨2, ![128, 128]⟩ .f32) (x7 : FVec Ideal ⟨1, ![128]⟩ .f32) (x8 x9 : FVec Ideal ⟨2, ![128, 128]⟩ .f32)
    (x10 : FVec Ideal ⟨1, ![128]⟩ .f32)
    (h : Cert.Pre_finite_inputs.fn (F := Ideal) x0 x1 x2 x3 x4 x5 x6 x7 x8 x9 x10 = (fun _ => 1#1)) :
    ∀ j : (⟨3, ![8, 1024, 64]⟩ : Shape).Idx, ∃ k : Fin 1024, x2 j = BitVec.ofNat 32 k.val := by
  intro j
  have e := congrFun h ix0
  dsimp only [Cert.Pre_finite_inputs.fn, Cert.Pre_finite_inputs.fn_part1, Cert.Pre_finite_inputs.fn_part2,
    Cert.Pre_finite_inputs.fn_part3] at e
  -- the last two conjuncts of the chain of `and`s
  rw [andi_at, andi_at, IntOp.andi_eq_one, IntOp.andi_eq_one] at e
  obtain ⟨⟨-, hge⟩, hlt⟩ := e
  -- each fold by `and` over the whole array that is 1 met a 1 at index j
  have a := Host.reduce_andi_all _ _ _ _ _ hge j
  have b := Host.reduce_andi_all _ _ _ _ _ hlt j
  rw [cmpi_at, StableHlo.Predicate.bcast_scalar _ Cert.Pre_finite_inputs.Facts.h_S_] at a b
  exact word_in_range (x2 j) a b

end Cert.CFConv.PreRange

end
-- ==== Proof.Spec.lean ====
/-
  The continuous-filter convolution as ONE function of the argument arrays over the extended reals,
  index by index. For a batch `b`, an atom `a`, a neighbour slot `n` and a feature `f`:

    hid  b a n k = ssp (Σ_g fij[b,a,n,g] · W1[g,k] + b1[k])            the filter network's hidden layer
    filt b a n f = Σ_k hid b a n k · W2[k,f] + b2[f]                   the filter
    proj b r f   = Σ_c x[b,r,c] · Win[c,f]                             atom r's features, projected
    agg  b a f   = Σ_n (proj b nb[b,a,n] f · filt b a n f) · mask[b,a,n]
    out  b a o   = ssp (Σ_f agg b a f · Wout[f,o] + bout[o])

  with `ssp z = log (1 + exp (−|z|)) + max z 0 − c` the shifted softplus (`c` the f32 word nearest log 2) and
  `nb[b,a,n]` the neighbour's row, a number below 1024. Nothing here uses distributivity, so no finiteness is needed.
-/
import Idealize.ShloMosaic.PureOps.Ideal
import Idealize.ShloMosaic.PureOps.Ideal.Laws
import Idealize.ShloMosaic.Lib.ValueIdx

noncomputable section

namespace Cert.CFConv

open Idealize.ShloMosaic Idealize.ShloMosaic.ValueIdx

/-- The shifted softplus on the extended reals, `log (1 + exp (−|z|)) + max z 0 − c`; `|z|` is `max z (−z)`. -/
def ssp (z : EReal) : EReal :=
  Ideal.log (1 + Ideal.exp (-(max z (-z)))) + max z 0 - Ideal.ofBits .f32 0x3F317218#32

/-- Row `a · 64 + n` of a tile of 64 atoms with 64 neighbour slots each, laid out as 4096 rows. -/
def row64 (a n : Fin 64) : Fin 4096 := ⟨a.val * 64 + n.val, by have := a.isLt; have := n.isLt; omega⟩

variable (x : FVec Ideal ⟨3, ![8, 1024, 128]⟩ .f32) (mask : FVec Ideal ⟨3, ![8, 1024, 64]⟩ .f32)
  (nb : (⟨3, ![8, 1024, 64]⟩ : Shape).Idx → Fin 1024) (fij : FVec Ideal ⟨4, ![8, 1024, 64, 50]⟩ .f32)
  (W1 : FVec Ideal ⟨2, ![50, 128]⟩ .f32) (b1 : FVec Ideal ⟨1, ![128]⟩ .f32)
  (W2 : FVec Ideal ⟨2, ![128, 128]⟩ .f32) (b2 : FVec Ideal ⟨1, ![128]⟩ .f32)
  (Win Wout : FVec Ideal ⟨2, ![128, 128]⟩ .f32) (bout : FVec Ideal ⟨1, ![128]⟩ .f32)

/-- The filter network's hidden layer. -/
def hid (b : Fin 8) (a : Fin 1024) (n : Fin 64) (k : Fin 128) : EReal :=
  ssp ((∑ g : Fin 50, fij (ix4 b a n g) * W1 (ix2 g k)) + b1 (ix1 k))

/-- The filter: the hidden layer through the second dense layer. -/
def filt (b : Fin 8) (a : Fin 1024) (n : Fin 64) (f : Fin 128) : EReal :=
  (∑ k : Fin 128, hid fij W1 b1 b a n k * W2 (ix2 k f)) + b2 (ix1 f)

/-- Atom `r`'s features through the input projection. -/
def proj (b : Fin 8) (r : Fin 1024) (f : Fin 128) : EReal :=
  ∑ c : Fin 128, x (ix3 b r c) * Win (ix2 c f)

/-- The masked sum over the neighbour slots of the neighbour's projected features times the filter. -/
def agg (b : Fin 8) (a : Fin 1024) (f : Fin 128) : EReal :=
  ∑ n : Fin 64, (proj x Win b (nb (ix3 b a n)) f * filt fij W1 b1 W2 b2 b a n f) * mask (ix3 b a n)

/-- The result at batch `b`, atom `a`, output feature `o`. -/
def outAt (b : Fin 8) (a : Fin 1024) (o : Fin 128) : EReal :=
  ssp ((∑ f : Fin 128, agg x mask nb fij W1 b1 W2 b2 Win b a f * Wout (ix2 f o)) + bout (ix1 o))

/-- The whole result array. -/
def out : FVec Ideal ⟨3, ![8, 1024, 128]⟩ .f32 :=
  fun i => outAt x mask nb fij W1 b1 W2 b2 Win Wout bout (i 0) (i 1) (i 2)

theorem out_ix3 (b : Fin 8) (a : Fin 1024) (o : Fin 128) :
    out x mask nb fij W1 b1 W2 b2 Win Wout bout (ix3 b a o) = outAt x mask nb fij W1 b1 W2 b2 Win Wout bout b a o := rfl

end Cert.CFConv

end
-- ==== Proof.KPay12.lean ====
/-
  The kernel body's first two payloads read at an index, over the extended reals.

  • The first payload is the block of atom features `[1, 1024, 128]` times the input projection `[128, 128]`:
    at row `r` and feature `f` it is `Σ_c x[0, r, c] · W[c, f]`.
  • The second payload is the filter network on a tile of 64 atoms with 64 neighbour slots each, laid out as 4096 rows
    (row `a · 64 + n`): at that row and feature `f` it is
    `Σ_k ssp (Σ_g fij[0, a, n, g] · W1[g, k] + b1[k]) · W2[k, f] + b2[f]`.

  Each matrix product into a zero accumulator is the sum over its one contracted coordinate; the format changes are the
  identity; the layout operations (dropping a leading unit axis, merging the two tile axes into one, repeating a bias row)
  read one element of their operand; and the kernel's spelling of the shifted softplus, `log (1 + exp (0 − |z|)) + max z 0 − c`
  with the f32 words of `1` and `0`, is `ssp z`.
-/
import proofs.«408758_j22007412425372_2_alg».proof.Proof.Spec
import proofs.«408758_j22007412425372_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.CFConv.KPay12
open Idealize.ShloMosaic Idealize.ShloMosaic.ValueIdx Cert.KernelIdeal Cert.KernelIdeal.Gen

/-! ### The matrix product `dot_S1024x128_S128x128_S1024x128_1_0_0_1_n_n`: its operand indices, axis by axis -/

theorem lhs_A_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_A_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_A_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_A_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The product into a zero accumulator, read at row `r` and column `f`: the sum over the contracted coordinate. -/
theorem mm_A_apply (lhs : FVec Ideal S1024x128 .bf16) (rhs : FVec Ideal S128x128 .bf16) (r : Fin 1024) (f : Fin 128) :
    matmul dot_S1024x128_S128x128_S1024x128_1_0_0_1_n_n none lhs rhs (constant (F := Ideal) S1024x128 .f32 0x00000000#32) (ix2 r f)
      = ∑ c : Fin 128, lhs (ix2 r c) * rhs (ix2 c f) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 r f) ((contrEquiv1 dot_S1024x128_S128x128_S1024x128_1_0_0_1_n_n 128 rfl rfl).symm k) = ix2 r k := funext fun a => Fin.ext (by
    match a with
    | ⟨0, _⟩ => exact lhs_A_0 _ _
    | ⟨1, _⟩ => exact (lhs_A_1 _ _).trans hk)
  have er : dot_S1024x128_S128x128_S1024x128_1_0_0_1_n_n.rhsIdx (ix2 r f) ((contrEquiv1 dot_S1024x128_S128x128_S1024x128_1_0_0_1_n_n 128 rfl rfl).symm k) = ix2 k f := funext fun a => Fin.ext (by
    match a with
    | ⟨0, _⟩ => exact (rhs_A_0 _ _).trans hk
    | ⟨1, _⟩ => exact rhs_A_1 _ _)
  rw [el, er]

/-! ### The matrix product `dot_S4096x50_S50x128_S4096x128_1_0_0_1_n_n`: its operand indices, axis by axis -/

theorem lhs_B_0 (i : S4096x128.Idx) (q : dot_S4096x50_S50x128_S4096x128_1_0_0_1_n_n.contr.Idx) :
    (dot_S4096x50_S50x128_S4096x128_1_0_0_1_n_n.lhsIdx i q 0).val = (i 0).val := by
  unfold DotDims.lhsIdx
  rw [dif_neg (show ¬(0 : Fin S4096x50.rank) ∈ dot_S4096x50_S50x128_S4096x128_1_0_0_1_n_n.lhsBatch by decide), dif_pos (show (0 : Fin S4096x50.rank) ∈ dot_S4096x50_S50x128_S4096x128_1_0_0_1_n_n.lhsNonContracting by decide)]
  rfl
theorem lhs_B_1 (i : S4096x128.Idx) (q : dot_S4096x50_S50x128_S4096x128_1_0_0_1_n_n.contr.Idx) :
    (dot_S4096x50_S50x128_S4096x128_1_0_0_1_n_n.lhsIdx i q 1).val = (q ⟨0, by decide⟩).val :=
  dot_S4096x50_S50x128_S4096x128_1_0_0_1_n_n.lhsIdx_val_of_single rfl i q
theorem rhs_B_0 (i : S4096x128.Idx) (q : dot_S4096x50_S50x128_S4096x128_1_0_0_1_n_n.contr.Idx) :
    (dot_S4096x50_S50x128_S4096x128_1_0_0_1_n_n.rhsIdx i q 0).val = (q ⟨0, by decide⟩).val :=
  dot_S4096x50_S50x128_S4096x128_1_0_0_1_n_n.rhsIdx_val_of_single rfl i q
theorem rhs_B_1 (i : S4096x128.Idx) (q : dot_S4096x50_S50x128_S4096x128_1_0_0_1_n_n.contr.Idx) :
    (dot_S4096x50_S50x128_S4096x128_1_0_0_1_n_n.rhsIdx i q 1).val = (i 1).val := by
  unfold DotDims.rhsIdx
  rw [dif_neg (show ¬(1 : Fin S50x128.rank) ∈ dot_S4096x50_S50x128_S4096x128_1_0_0_1_n_n.rhsBatch by decide), dif_pos (show (1 : Fin S50x128.rank) ∈ dot_S4096x50_S50x128_S4096x128_1_0_0_1_n_n.rhsNonContracting by decide)]
  rfl

/-- The product into a zero accumulator, read at row `r` and column `f`: the sum over the contracted coordinate. -/
theorem mm_B_apply (lhs : FVec Ideal S4096x50 .bf16) (rhs : FVec Ideal S50x128 .bf16) (r : Fin 4096) (f : Fin 128) :
    matmul dot_S4096x50_S50x128_S4096x128_1_0_0_1_n_n none lhs rhs (constant (F := Ideal) S4096x128 .f32 0x00000000#32) (ix2 r f)
      = ∑ c : Fin 50, lhs (ix2 r c) * rhs (ix2 c f) := by
  simp only [matmul]
  rw [Ideal.matmul_constant_zero_apply, ← Equiv.sum_comp (contrEquiv1 dot_S4096x50_S50x128_S4096x128_1_0_0_1_n_n 50 rfl rfl).symm]
  refine Finset.sum_congr rfl fun k _ => ?_
  have hk := contrEquiv1_symm_val dot_S4096x50_S50x128_S4096x128_1_0_0_1_n_n 50 rfl rfl k
  have el : dot_S4096x50_S50x128_S4096x128_1_0_0_1_n_n.lhsIdx (ix2 r f) ((contrEquiv1 dot_S4096x50_S50x128_S4096x128_1_0_0_1_n_n 50 rfl rfl).symm k) = ix2 r k := funext fun a => Fin.ext (by
    match a with
    | ⟨0, _⟩ => exact lhs_B_0 _ _
    | ⟨1, _⟩ => exact (lhs_B_1 _ _).trans hk)
  have er : dot_S4096x50_S50x128_S4096x128_1_0_0_1_n_n.rhsIdx (ix2 r f) ((contrEquiv1 dot_S4096x50_S50x128_S4096x128_1_0_0_1_n_n 50 rfl rfl).symm k) = ix2 k f := funext fun a => Fin.ext (by
    match a with
    | ⟨0, _⟩ => exact (rhs_B_0 _ _).trans hk
    | ⟨1, _⟩ => exact rhs_B_1 _ _)
  rw [el, er]

/-! ### The matrix product `dot_S4096x128_S128x128_S4096x128_1_0_0_1_n_n`: its operand indices, axis by axis -/

theorem lhs_C_0 (i : S4096x128.Idx) (q : dot_S4096x128_S128x128_S4096x128_1_0_0_1_n_n.contr.Idx) :
    (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_C_1 (i : S4096x128.Idx) (q : dot_S4096x128_S128x128_S4096x128_1_0_0_1_n_n.contr.Idx) :
    (dot_S4096x128_S128x128_S4096x128_1_0_0_1_n_n.lhsIdx i q 1).val = (q ⟨0, by decide⟩).val :=
  dot_S4096x128_S128x128_S4096x128_1_0_0_1_n_n.lhsIdx_val_of_single rfl i q
theorem rhs_C_0 (i : S4096x128.Idx) (q : dot_S4096x128_S128x128_S4096x128_1_0_0_1_n_n.contr.Idx) :
    (dot_S4096x128_S128x128_S4096x128_1_0_0_1_n_n.rhsIdx i q 0).val = (q ⟨0, by decide⟩).val :=
  dot_S4096x128_S128x128_S4096x128_1_0_0_1_n_n.rhsIdx_val_of_single rfl i q
theorem rhs_C_1 (i : S4096x128.Idx) (q : dot_S4096x128_S128x128_S4096x128_1_0_0_1_n_n.contr.Idx) :
    (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The product into a zero accumulator, read at row `r` and column `f`: the sum over the contracted coordinate. -/
theorem mm_C_apply (lhs : FVec Ideal S4096x128 .bf16) (rhs : FVec Ideal S128x128 .bf16) (r : Fin 4096) (f : Fin 128) :
    matmul dot_S4096x128_S128x128_S4096x128_1_0_0_1_n_n none lhs rhs (constant (F := Ideal) S4096x128 .f32 0x00000000#32) (ix2 r f)
      = ∑ c : Fin 128, lhs (ix2 r c) * rhs (ix2 c f) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 r f) ((contrEquiv1 dot_S4096x128_S128x128_S4096x128_1_0_0_1_n_n 128 rfl rfl).symm k) = ix2 r k := funext fun a => Fin.ext (by
    match a with
    | ⟨0, _⟩ => exact lhs_C_0 _ _
    | ⟨1, _⟩ => exact (lhs_C_1 _ _).trans hk)
  have er : dot_S4096x128_S128x128_S4096x128_1_0_0_1_n_n.rhsIdx (ix2 r f) ((contrEquiv1 dot_S4096x128_S128x128_S4096x128_1_0_0_1_n_n 128 rfl rfl).symm k) = ix2 k f := funext fun a => Fin.ext (by
    match a with
    | ⟨0, _⟩ => exact (rhs_C_0 _ _).trans hk
    | ⟨1, _⟩ => exact rhs_C_1 _ _)
  rw [el, er]

/-! ### The pieces of the second payload: the filter network -/

/-- The f32 word of one denotes the extended real `1`. -/
theorem ofBits_one_f32 : Ideal.ofBits .f32 0x3F800000#32 = 1 := IdealRules.sign_bit.ideal_onePat .f32

/-- The block of filter inputs `[1, 64, 64, 50]` laid out as `[4096, 50]` reads, at row `a · 64 + n` and column `g`,
    the block at `(0, a, n, g)`. -/
theorem cast_fb_apply (fb : Vec Ideal S1x64x64x50 .f32) (a n : Fin 64) (g : Fin 50) :
    shapeCast S4096x50 (shapeCast S64x64x50 fb shapeCasts_S1x64x64x50_S64x64x50) shapeCasts_S64x64x50_S4096x50
        (ix2 (Cert.CFConv.row64 a n) g) = fb (ix4 (0 : Fin 1) a n g) := by
  refine (shapeCast_apply _ shapeCasts_S64x64x50_S4096x50 _ (ix3 a n g) ?_).trans ?_
  · rw [Shape.rowMajor_val_three, Shape.rowMajor_val_two]
    rfl
  · exact shapeCast_1abc_abc_apply fb shapeCasts_S1x64x64x50_S64x64x50 a n g

/-- A bias `[128]` laid out as one row and repeated over `4096` rows reads, at `(p, c)`, the bias at `c`. -/
theorem bias_apply (b : Vec Ideal S128 .f32) (p : Fin 4096) (c : Fin 128) :
    broadcastTo S4096x128 (shapeCast S1x128 b shapeCasts_S128_S1x128) broadcasts_S1x128_S4096x128 (ix2 p c) = b (ix1 c) :=
  (broadcastTo_1b_ab_apply _ broadcasts_S1x128_S4096x128 p c).trans (shapeCast_a_1a_apply b shapeCasts_S128_S1x128 0 c)

/-- The hidden layer before its activation, at row `a · 64 + n` and unit `k`. -/
theorem pre_apply (fb : Vec Ideal S1x64x64x50 .f32) (W1 : Vec Ideal S50x128 .f32) (b1 : Vec Ideal S128 .f32)
    (a n : Fin 64) (k : Fin 128) :
    addf (matmul dot_S4096x50_S50x128_S4096x128_1_0_0_1_n_n none
          (truncf .bf16 (shapeCast S4096x50 (shapeCast S64x64x50 fb shapeCasts_S1x64x64x50_S64x64x50) shapeCasts_S64x64x50_S4096x50) bitsLt_bf16_f32)
          (truncf .bf16 W1 bitsLt_bf16_f32) (constant (F := Ideal) S4096x128 .f32 0x00000000#32))
        (broadcastTo S4096x128 (shapeCast S1x128 b1 shapeCasts_S128_S1x128) broadcasts_S1x128_S4096x128)
        (ix2 (Cert.CFConv.row64 a n) k)
      = (∑ g : Fin 50, fb (ix4 (0 : Fin 1) a n g) * W1 (ix2 g k)) + b1 (ix1 k) := by
  refine (addf_apply _ _ _).trans ?_
  refine congrArg₂ (· + ·) ?_ (bias_apply b1 _ k)
  refine (mm_B_apply _ _ (Cert.CFConv.row64 a n) k).trans ?_
  refine Finset.sum_congr rfl fun g _ => ?_
  exact congrArg₂ (· * ·) ((truncf_apply (ψ := .bf16) _ bitsLt_bf16_f32 _).trans (cast_fb_apply fb a n g))
    (truncf_apply (ψ := .bf16) W1 bitsLt_bf16_f32 _)

/-- The kernel's spelling of the shifted softplus, element by element: `log (1 + exp (0 − |z|)) + max z 0 − c` with the
    f32 words of `1` and `0`, is `ssp z`. -/
theorem ssp_layer_apply {s : Shape} (P : FVec Ideal s .f32) (i : s.Idx) :
    subf (addf (log (addf (broadcast s (Scalar.ofBits (F := Ideal) .f32 0x3F800000#32))
            (exp (subf (broadcast s (Scalar.ofBits (F := Ideal) .f32 0x00000000#32)) (absf P)))))
          (maximumf P (broadcast s (Scalar.ofBits (F := Ideal) .f32 0x00000000#32))))
        (broadcast s (Scalar.ofBits (F := Ideal) .f32 0x3F317218#32)) i
      = Cert.CFConv.ssp (P i) := by
  show Ideal.log (Ideal.ofBits .f32 0x3F800000#32 + Ideal.exp (Ideal.ofBits .f32 0x00000000#32 - max (P i) (-(P i))))
      + max (P i) (Ideal.ofBits .f32 0x00000000#32) - Ideal.ofBits .f32 0x3F317218#32 = _
  unfold Cert.CFConv.ssp
  rw [ofBits_one_f32, Ideal.ofBits_zero_f32, zero_sub]

end Cert.CFConv.KPay12

namespace Cert.CFConv.KBody
open Idealize.ShloMosaic Idealize.ShloMosaic.ValueIdx Cert.KernelIdeal Cert.KernelIdeal.Gen
open Cert.CFConv.KPay12

/-! ### The first payload: the block of atom features times the input projection -/

theorem pay1_apply (xb : Vec Ideal S1x1024x128 .f32) (w : Vec Ideal S128x128 .f32) (r : Fin 1024) (f : Fin 128) :
    k0_pay1 (F := Ideal) xb w (ix2 r f) = ∑ c : Fin 128, xb (ix3 (0 : Fin 1) r c) * w (ix2 c f) := by
  unfold k0_pay1
  refine (congrFun (shapeCast_self _ _) _).trans ?_
  refine (mm_A_apply _ _ r f).trans ?_
  refine Finset.sum_congr rfl fun c _ => ?_
  rw [truncf_apply, truncf_apply]
  exact congrArg (· * w (ix2 c f)) (shapeCast_1ab_ab_apply xb shapeCasts_S1x1024x128_S1024x128 r c)

/-! ### The second payload: the filter network -/

theorem pay2_apply (fb : Vec Ideal S1x64x64x50 .f32) (W1 : Vec Ideal S50x128 .f32) (b1 : Vec Ideal S128 .f32)
    (W2 : Vec Ideal S128x128 .f32) (b2 : Vec Ideal S128 .f32) (a n : Fin 64) (f : Fin 128) :
    k0_pay2 (F := Ideal) fb W1 b1 W2 b2 (ix2 (Cert.CFConv.row64 a n) f)
      = (∑ k : Fin 128, Cert.CFConv.ssp ((∑ g : Fin 50, fb (ix4 (0 : Fin 1) a n g) * W1 (ix2 g k)) + b1 (ix1 k)) * W2 (ix2 k f)) + b2 (ix1 f) := by
  unfold k0_pay2
  refine (addf_apply _ _ _).trans ?_
  refine congrArg₂ (· + ·) ?_ (bias_apply b2 _ f)
  refine (mm_C_apply _ _ (Cert.CFConv.row64 a n) f).trans ?_
  refine Finset.sum_congr rfl fun k _ => ?_
  refine congrArg₂ (· * ·) ((truncf_apply (ψ := .bf16) _ bitsLt_bf16_f32 _).trans ?_) (truncf_apply (ψ := .bf16) W2 bitsLt_bf16_f32 _)
  refine (ssp_layer_apply _ (ix2 (Cert.CFConv.row64 a n) k)).trans ?_
  exact congrArg Cert.CFConv.ssp (pre_apply fb W1 b1 a n k)

end Cert.CFConv.KBody
end
-- ==== Proof.KPay3.lean ====
/-
  The kernel body's third payload read at an index.

  The payload builds a one-hot matrix [4096, 1024]: row `a·64 + n`, column `r` is 1 when the 32-bit word of `r` equals the
  neighbour word of atom `a`, slot `n`, and 0 otherwise. Under the hypothesis that every neighbour word is the word of a
  row number `nbf a n` below 1024, two such words are equal only when the row numbers are, so the row has its single 1 at
  column `nbf a n`. The product of that matrix with the scratch is then, at row `a·64 + n` and feature `f`,

      Σ_{r < 1024} onehot(a·64+n, r) · sc[r, f]  =  sc[nbf a n, f],

  because every other term is `0 · z = 0` and the remaining one is `1 · z = z`, which hold at every extended real (no
  finiteness is used). The rest is read off stage by stage: the product with the filter and with the broadcast mask at
  `(a, n, f)`, the sum over the 64 neighbour slots, the output dense layer (a sum over the 128 features plus the bias),
  and the shifted softplus, which the kernel spells `log (1 + exp (0 − |z|)) + max z 0 − c` with the f32 words of 0 and 1.
  Reshapes are read at explicit coordinates through their row-major positions.
-/
import proofs.«408758_j22007412425372_2_alg».proof.Proof.Spec
import proofs.«408758_j22007412425372_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.StableHlo.Predicate

noncomputable section

namespace Cert.CFConv.KBody
open Idealize.ShloMosaic Idealize.ShloMosaic.ValueIdx Cert.KernelIdeal Cert.KernelIdeal.Gen

/-! ## The stages of the third payload, named -/

/-- The one-hot matrix: row `a·64+n`, column `r` is 1 when `r` is the neighbour word of `(a, n)`, else 0. -/
private def onehot (nbb : Vec Ideal S1x64x64x1 .i32) : FVec Ideal S4096x1024 .bf16 :=
  shapeCast S4096x1024
    (truncf .bf16
      (sitofp .f32
        (extui 32
          (cmpi .eq (iota .tc S64x64x1024 32 [2] iota_S64x64x1024_d2_w32)
            (broadcastTo S64x64x1024 (shapeCast S64x64x1 nbb shapeCasts_S1x64x64x1_S64x64x1) broadcasts_S64x64x1_S64x64x1024))
          natLt_1_32))
      bitsLt_bf16_f32)
    shapeCasts_S64x64x1024_S4096x1024

/-- The one-hot matrix times the scratch: row `a·64+n` is the scratch's row of the neighbour. -/
private def gathered (nbb : Vec Ideal S1x64x64x1 .i32) (sc : Vec Ideal S1024x128 .f32) : FVec Ideal S4096x128 .f32 :=
  matmul dot_S4096x1024_S1024x128_S4096x128_1_0_0_1_n_n none (onehot nbb) (truncf .bf16 sc bitsLt_bf16_f32)
    (constant S4096x128 .f32 0x00000000#32)

/-- The gathered rows times the filter, as [64,64,128], times the mask. -/
private def masked (w : FVec Ideal S4096x128 .f32) (nbb : Vec Ideal S1x64x64x1 .i32) (sc : Vec Ideal S1024x128 .f32)
    (mk : Vec Ideal S1x64x64x1 .f32) : FVec Ideal S64x64x128 .f32 :=
  mulf (shapeCast S64x64x128 (mulf (gathered nbb sc) w) shapeCasts_S4096x128_S64x64x128)
    (broadcastTo S64x64x128 (shapeCast S64x64x1 mk shapeCasts_S1x64x64x1_S64x64x1) broadcasts_S64x64x1_S64x64x128)

/-- The sum over the neighbour axis. -/
private def summed (w : FVec Ideal S4096x128 .f32) (nbb : Vec Ideal S1x64x64x1 .i32) (sc : Vec Ideal S1024x128 .f32)
    (mk : Vec Ideal S1x64x64x1 .f32) : FVec Ideal S64x128 .f32 :=
  multiReduction .add [1] S64x128 (masked w nbb sc mk) 0x00000000#32 reduces_S64x64x128_S64x128 (.inl rfl) rfl

/-- The output dense layer: a product with the weights plus the bias row. -/
private def dense (x : FVec Ideal S64x128 .f32) (Wout : Vec Ideal S128x128 .f32) (bout : Vec Ideal S128 .f32) :
    FVec Ideal S64x128 .f32 :=
  addf
    (matmul dot_S64x128_S128x128_S64x128_1_0_0_1_n_n none (truncf .bf16 x bitsLt_bf16_f32) (truncf .bf16 Wout bitsLt_bf16_f32)
      (constant S64x128 .f32 0x00000000#32))
    (broadcastTo S64x128 (shapeCast S1x128 bout shapeCasts_S128_S1x128) broadcasts_S1x128_S64x128)

/-- The shifted softplus as the kernel spells it, elementwise. -/
private def sspV (z : FVec Ideal S64x128 .f32) : FVec Ideal S64x128 .f32 :=
  subf
    (addf
      (log (addf (broadcast S64x128 (Scalar.ofBits .f32 0x3F800000#32))
        (exp (subf (broadcast S64x128 (Scalar.ofBits .f32 0x00000000#32)) (absf z)))))
      (maximumf z (broadcast S64x128 (Scalar.ofBits .f32 0x00000000#32))))
    (broadcast S64x128 (Scalar.ofBits .f32 0x3F317218#32))

/-- The payload is the composition of its stages. -/
private theorem pay3_eq (w : FVec Ideal S4096x128 .f32) (nbb : Vec Ideal S1x64x64x1 .i32) (sc : Vec Ideal S1024x128 .f32)
    (mk : Vec Ideal S1x64x64x1 .f32) (Wout : Vec Ideal S128x128 .f32) (bout : Vec Ideal S128 .f32) :
    k0_pay3 (F := Ideal) w nbb sc mk Wout bout
      = shapeCast S1x64x128 (sspV (dense (summed w nbb sc mk) Wout bout)) shapeCasts_S64x128_S1x64x128 := rfl

/-! ## The shifted softplus stage -/

/-- The f32 word `0x3F800000` is the extended real 1. -/
private theorem ofBits_one_f32 : Ideal.ofBits .f32 0x3F800000#32 = 1 := IdealRules.sign_bit.ideal_onePat .f32

/-- Elementwise, the kernel's spelling `log (1 + exp (0 − |z|)) + max z 0 − c` is the specification's shifted softplus. -/
private theorem sspV_apply (z : FVec Ideal S64x128 .f32) (i : S64x128.Idx) : sspV z i = Cert.CFConv.ssp (z i) := by
  show Ideal.log (Ideal.ofBits .f32 0x3F800000#32 + Ideal.exp (Ideal.ofBits .f32 0x00000000#32 - max (z i) (-(z i))))
      + max (z i) (Ideal.ofBits .f32 0x00000000#32) - Ideal.ofBits .f32 0x3F317218#32 = _
  rw [ofBits_one_f32, Ideal.ofBits_zero_f32, zero_sub]
  rfl

/-! ## The output dense layer: a [64,128] × [128,128] product read at an index -/

private theorem lhsD_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide),
    dif_pos (show (0 : Fin S64x128.rank) ∈ dot_S64x128_S128x128_S64x128_1_0_0_1_n_n.lhsNonContracting by decide)]
  rfl
private theorem lhsD_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
private theorem rhsD_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
private theorem rhsD_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide),
    dif_pos (show (1 : Fin S128x128.rank) ∈ dot_S64x128_S128x128_S64x128_1_0_0_1_n_n.rhsNonContracting by decide)]
  rfl

/-- Into the zero accumulator the product at `(a, o)` is the sum over the contracted coordinate. -/
private theorem matmulD_apply (x : FVec Ideal S64x128 .bf16) (y : FVec Ideal S128x128 .bf16) (a : Fin 64) (o : Fin 128) :
    matmul dot_S64x128_S128x128_S64x128_1_0_0_1_n_n none x y (constant (F := Ideal) S64x128 .f32 0x00000000#32) (ix2 a o)
      = ∑ f : Fin 128, x (ix2 a f) * y (ix2 f o) := by
  simp only [matmul]
  rw [Ideal.matmul_constant_zero_apply,
    ← Equiv.sum_comp (contrEquiv1 dot_S64x128_S128x128_S64x128_1_0_0_1_n_n 128 rfl rfl).symm]
  refine Finset.sum_congr rfl fun k _ => ?_
  have hk := contrEquiv1_symm_val dot_S64x128_S128x128_S64x128_1_0_0_1_n_n 128 rfl rfl k
  have el : dot_S64x128_S128x128_S64x128_1_0_0_1_n_n.lhsIdx (ix2 a o)
      ((contrEquiv1 dot_S64x128_S128x128_S64x128_1_0_0_1_n_n 128 rfl rfl).symm k) = ix2 a k :=
    funext fun b => Fin.ext (by
      match b with
      | ⟨0, _⟩ => exact lhsD_0 _ _
      | ⟨1, _⟩ => exact (lhsD_1 _ _).trans hk)
  have er : dot_S64x128_S128x128_S64x128_1_0_0_1_n_n.rhsIdx (ix2 a o)
      ((contrEquiv1 dot_S64x128_S128x128_S64x128_1_0_0_1_n_n 128 rfl rfl).symm k) = ix2 k o :=
    funext fun b => Fin.ext (by
      match b with
      | ⟨0, _⟩ => exact (rhsD_0 _ _).trans hk
      | ⟨1, _⟩ => exact rhsD_1 _ _)
  rw [el, er]

/-- The bias row, added as a leading unit axis and broadcast over the 64 rows, reads the bias at the column. -/
private theorem biasRow_apply (bout : Vec Ideal S128 .f32) (a : Fin 64) (o : Fin 128) :
    broadcastTo S64x128 (shapeCast S1x128 bout shapeCasts_S128_S1x128) broadcasts_S1x128_S64x128 (ix2 a o) = bout (ix1 o) := by
  refine (broadcastTo_apply _ broadcasts_S1x128_S64x128 (ix2 a o) (ix2 (0 : Fin 1) o) (fun b => ?_)).trans ?_
  · match b with
    | ⟨0, _⟩ => rfl
    | ⟨1, _⟩ => rfl
  refine shapeCast_apply _ shapeCasts_S128_S1x128 (ix2 (0 : Fin 1) o) (ix1 o) ?_
  rw [Shape.rowMajor_val_one, Shape.rowMajor_val_two]
  show o.val = 0 * 128 + o.val
  omega

/-- The dense layer at `(a, o)`: the sum over the features of the input times the weights, plus the bias. -/
private theorem dense_apply (x : FVec Ideal S64x128 .f32) (Wout : Vec Ideal S128x128 .f32) (bout : Vec Ideal S128 .f32)
    (a : Fin 64) (o : Fin 128) :
    dense x Wout bout (ix2 a o) = (∑ f : Fin 128, x (ix2 a f) * Wout (ix2 f o)) + bout (ix1 o) := by
  unfold dense
  rw [addf_apply, matmulD_apply, biasRow_apply]
  rfl

/-! ## The one-hot matrix read at an index -/

/-- Two row numbers below 1024 with the same 32-bit word are the same row. -/
private theorem ofNat_inj_1024 (r k : Fin 1024) (h : BitVec.ofNat 32 r.val = BitVec.ofNat 32 k.val) : r = k := by
  have ht := congrArg BitVec.toNat h
  simp only [BitVec.toNat_ofNat] at ht
  exact Fin.ext (by have := r.isLt; have := k.isLt; omega)

/-- The set bit, widened to 32 bits and converted, is the extended real 1. -/
private theorem sitofp_bit_one : (FloatOps.sitofp (F := Ideal) .f32 ((1#1 : BitVec 1).setWidth 32) : Ideal .f32) = 1 := by
  show ((((1#1 : BitVec 1).setWidth 32).toInt : ℝ) : EReal) = 1
  have h1 : ((1#1 : BitVec 1).setWidth 32).toInt = 1 := by decide
  rw [h1]; simp
/-- The cleared bit, widened to 32 bits and converted, is the extended real 0. -/
private theorem sitofp_bit_zero : (FloatOps.sitofp (F := Ideal) .f32 ((0#1 : BitVec 1).setWidth 32) : Ideal .f32) = 0 := by
  show ((((0#1 : BitVec 1).setWidth 32).toInt : ℝ) : EReal) = 0
  have h0 : ((0#1 : BitVec 1).setWidth 32).toInt = 0 := by decide
  rw [h0]; simp

/-- The neighbour words, with the leading unit axis dropped and broadcast along the 1024 columns, read the word of `(a, n)`. -/
private theorem nbCols_apply (nbb : Vec Ideal S1x64x64x1 .i32) (a n : Fin 64) (r : Fin 1024) :
    broadcastTo S64x64x1024 (shapeCast S64x64x1 nbb shapeCasts_S1x64x64x1_S64x64x1) broadcasts_S64x64x1_S64x64x1024 (ix3 a n r)
      = nbb (ix4 (0 : Fin 1) a n (0 : Fin 1)) := by
  refine (broadcastTo_apply _ broadcasts_S64x64x1_S64x64x1024 (ix3 a n r) (ix3 a n (0 : Fin 1)) (fun b => ?_)).trans ?_
  · match b with
    | ⟨0, _⟩ => rfl
    | ⟨1, _⟩ => rfl
    | ⟨2, _⟩ => rfl
  refine shapeCast_apply _ shapeCasts_S1x64x64x1_S64x64x1 (ix3 a n (0 : Fin 1)) (ix4 (0 : Fin 1) a n (0 : Fin 1)) ?_
  rw [Shape.rowMajor_val_four, Shape.rowMajor_val_three]
  show ((0 * 64 + a.val) * 64 + n.val) * 1 + 0 = (a.val * 64 + n.val) * 1 + 0
  omega

/-- Row `a·64+n`, column `r` of the one-hot matrix: 1 when `r` is the neighbour's row, else 0. -/
private theorem onehot_apply (nbb : Vec Ideal S1x64x64x1 .i32) (nbf : Fin 64 → Fin 64 → Fin 1024)
    (hnb : ∀ a n, nbb (ix4 (0 : Fin 1) a n (0 : Fin 1)) = BitVec.ofNat 32 (nbf a n).val) (a n : Fin 64) (r : Fin 1024) :
    onehot nbb (ix2 (Cert.CFConv.row64 a n) r) = if r = nbf a n then 1 else 0 := by
  unfold onehot
  refine (shapeCast_apply _ shapeCasts_S64x64x1024_S4096x1024 (ix2 (Cert.CFConv.row64 a n) r) (ix3 a n r) ?_).trans ?_
  · rw [Shape.rowMajor_val_three, Shape.rowMajor_val_two]
    rfl
  have hi : iota .tc S64x64x1024 32 [2] iota_S64x64x1024_d2_w32 (ix3 a n r) = BitVec.ofNat 32 r.val :=
    iota_single_apply .tc S64x64x1024 32 2 iota_S64x64x1024_d2_w32 (ix3 a n r)
  show FloatOps.sitofp (F := Ideal) .f32
      ((IntOp.cmpi .eq (iota .tc S64x64x1024 32 [2] iota_S64x64x1024_d2_w32 (ix3 a n r))
        (broadcastTo S64x64x1024 (shapeCast S64x64x1 nbb shapeCasts_S1x64x64x1_S64x64x1) broadcasts_S64x64x1_S64x64x1024
          (ix3 a n r))).setWidth 32) = _
  rw [hi, nbCols_apply, hnb a n]
  by_cases h : r = nbf a n
  · rw [if_pos h, StableHlo.Predicate.cmpi_eq_iff.mpr (by rw [h]), sitofp_bit_one]
  · have hne : ¬ IntOp.cmpi .eq (BitVec.ofNat 32 r.val) (BitVec.ofNat 32 (nbf a n).val) = 1#1 := fun hc =>
      h (ofNat_inj_1024 r (nbf a n) (StableHlo.Predicate.cmpi_eq_iff.mp hc))
    rw [if_neg h, eq_zero_of_ne_one hne, sitofp_bit_zero]

/-! ## The gather: the one-hot matrix times the scratch, read at an index -/

private theorem lhsG_0 (i : S4096x128.Idx) (q : dot_S4096x1024_S1024x128_S4096x128_1_0_0_1_n_n.contr.Idx) :
    (dot_S4096x1024_S1024x128_S4096x128_1_0_0_1_n_n.lhsIdx i q 0).val = (i 0).val := by
  unfold DotDims.lhsIdx
  rw [dif_neg (show ¬(0 : Fin S4096x1024.rank) ∈ dot_S4096x1024_S1024x128_S4096x128_1_0_0_1_n_n.lhsBatch by decide),
    dif_pos (show (0 : Fin S4096x1024.rank) ∈ dot_S4096x1024_S1024x128_S4096x128_1_0_0_1_n_n.lhsNonContracting by decide)]
  rfl
private theorem lhsG_1 (i : S4096x128.Idx) (q : dot_S4096x1024_S1024x128_S4096x128_1_0_0_1_n_n.contr.Idx) :
    (dot_S4096x1024_S1024x128_S4096x128_1_0_0_1_n_n.lhsIdx i q 1).val = (q ⟨0, by decide⟩).val :=
  dot_S4096x1024_S1024x128_S4096x128_1_0_0_1_n_n.lhsIdx_val_of_single rfl i q
private theorem rhsG_0 (i : S4096x128.Idx) (q : dot_S4096x1024_S1024x128_S4096x128_1_0_0_1_n_n.contr.Idx) :
    (dot_S4096x1024_S1024x128_S4096x128_1_0_0_1_n_n.rhsIdx i q 0).val = (q ⟨0, by decide⟩).val :=
  dot_S4096x1024_S1024x128_S4096x128_1_0_0_1_n_n.rhsIdx_val_of_single rfl i q
private theorem rhsG_1 (i : S4096x128.Idx) (q : dot_S4096x1024_S1024x128_S4096x128_1_0_0_1_n_n.contr.Idx) :
    (dot_S4096x1024_S1024x128_S4096x128_1_0_0_1_n_n.rhsIdx i q 1).val = (i 1).val := by
  unfold DotDims.rhsIdx
  rw [dif_neg (show ¬(1 : Fin S1024x128.rank) ∈ dot_S4096x1024_S1024x128_S4096x128_1_0_0_1_n_n.rhsBatch by decide),
    dif_pos (show (1 : Fin S1024x128.rank) ∈ dot_S4096x1024_S1024x128_S4096x128_1_0_0_1_n_n.rhsNonContracting by decide)]
  rfl

/-- Into the zero accumulator the product at `(p, f)` is the sum over the 1024 contracted rows. -/
private theorem matmulG_apply (x : FVec Ideal S4096x1024 .bf16) (y : FVec Ideal S1024x128 .bf16) (p : Fin 4096) (f : Fin 128) :
    matmul dot_S4096x1024_S1024x128_S4096x128_1_0_0_1_n_n none x y (constant (F := Ideal) S4096x128 .f32 0x00000000#32) (ix2 p f)
      = ∑ r : Fin 1024, x (ix2 p r) * y (ix2 r f) := by
  simp only [matmul]
  rw [Ideal.matmul_constant_zero_apply,
    ← Equiv.sum_comp (contrEquiv1 dot_S4096x1024_S1024x128_S4096x128_1_0_0_1_n_n 1024 rfl rfl).symm]
  refine Finset.sum_congr rfl fun k _ => ?_
  have hk := contrEquiv1_symm_val dot_S4096x1024_S1024x128_S4096x128_1_0_0_1_n_n 1024 rfl rfl k
  have el : dot_S4096x1024_S1024x128_S4096x128_1_0_0_1_n_n.lhsIdx (ix2 p f)
      ((contrEquiv1 dot_S4096x1024_S1024x128_S4096x128_1_0_0_1_n_n 1024 rfl rfl).symm k) = ix2 p k :=
    funext fun b => Fin.ext (by
      match b with
      | ⟨0, _⟩ => exact lhsG_0 _ _
      | ⟨1, _⟩ => exact (lhsG_1 _ _).trans hk)
  have er : dot_S4096x1024_S1024x128_S4096x128_1_0_0_1_n_n.rhsIdx (ix2 p f)
      ((contrEquiv1 dot_S4096x1024_S1024x128_S4096x128_1_0_0_1_n_n 1024 rfl rfl).symm k) = ix2 k f :=
    funext fun b => Fin.ext (by
      match b with
      | ⟨0, _⟩ => exact (rhsG_0 _ _).trans hk
      | ⟨1, _⟩ => exact rhsG_1 _ _)
  rw [el, er]

/-- THE GATHER: row `a·64+n` of the one-hot product is the scratch's row of the neighbour of `(a, n)`. In the sum over
    the 1024 rows every term but the neighbour's is `0 · z = 0` and the neighbour's is `1 · z = z`, at every extended real. -/
private theorem gathered_apply (nbb : Vec Ideal S1x64x64x1 .i32) (sc : Vec Ideal S1024x128 .f32) (nbf : Fin 64 → Fin 64 → Fin 1024)
    (hnb : ∀ a n, nbb (ix4 (0 : Fin 1) a n (0 : Fin 1)) = BitVec.ofNat 32 (nbf a n).val) (a n : Fin 64) (f : Fin 128) :
    gathered nbb sc (ix2 (Cert.CFConv.row64 a n) f) = sc (ix2 (nbf a n) f) := by
  unfold gathered
  rw [matmulG_apply, Finset.sum_eq_single (nbf a n)]
  · rw [onehot_apply nbb nbf hnb, if_pos rfl, one_mul]
    rfl
  · intro r _ hr
    rw [onehot_apply nbb nbf hnb, if_neg hr, zero_mul]
  · intro h
    exact absurd (Finset.mem_univ _) h

/-! ## The masked product and the sum over the neighbour slots -/

/-- The mask, with the leading unit axis dropped and broadcast along the 128 features, reads the mask of `(a, n)`. -/
private theorem maskCols_apply (mk : Vec Ideal S1x64x64x1 .f32) (a n : Fin 64) (f : Fin 128) :
    broadcastTo S64x64x128 (shapeCast S64x64x1 mk shapeCasts_S1x64x64x1_S64x64x1) broadcasts_S64x64x1_S64x64x128 (ix3 a n f)
      = mk (ix4 (0 : Fin 1) a n (0 : Fin 1)) := by
  refine (broadcastTo_apply _ broadcasts_S64x64x1_S64x64x128 (ix3 a n f) (ix3 a n (0 : Fin 1)) (fun b => ?_)).trans ?_
  · match b with
    | ⟨0, _⟩ => rfl
    | ⟨1, _⟩ => rfl
    | ⟨2, _⟩ => rfl
  refine shapeCast_apply _ shapeCasts_S1x64x64x1_S64x64x1 (ix3 a n (0 : Fin 1)) (ix4 (0 : Fin 1) a n (0 : Fin 1)) ?_
  rw [Shape.rowMajor_val_four, Shape.rowMajor_val_three]
  show ((0 * 64 + a.val) * 64 + n.val) * 1 + 0 = (a.val * 64 + n.val) * 1 + 0
  omega

/-- At `(a, n, f)`: the neighbour's scratch entry times the filter, times the mask. -/
private theorem masked_apply (w : FVec Ideal S4096x128 .f32) (nbb : Vec Ideal S1x64x64x1 .i32) (sc : Vec Ideal S1024x128 .f32)
    (mk : Vec Ideal S1x64x64x1 .f32) (nbf : Fin 64 → Fin 64 → Fin 1024)
    (hnb : ∀ a n, nbb (ix4 (0 : Fin 1) a n (0 : Fin 1)) = BitVec.ofNat 32 (nbf a n).val) (a n : Fin 64) (f : Fin 128) :
    masked w nbb sc mk (ix3 a n f)
      = (sc (ix2 (nbf a n) f) * w (ix2 (Cert.CFConv.row64 a n) f)) * mk (ix4 (0 : Fin 1) a n (0 : Fin 1)) := by
  unfold masked
  have h1 : shapeCast S64x64x128 (mulf (gathered nbb sc) w) shapeCasts_S4096x128_S64x64x128 (ix3 a n f)
      = sc (ix2 (nbf a n) f) * w (ix2 (Cert.CFConv.row64 a n) f) := by
    refine (shapeCast_apply _ shapeCasts_S4096x128_S64x64x128 (ix3 a n f) (ix2 (Cert.CFConv.row64 a n) f) ?_).trans ?_
    · rw [Shape.rowMajor_val_two, Shape.rowMajor_val_three]
      rfl
    rw [mulf_apply, gathered_apply nbb sc nbf hnb]
  rw [mulf_apply, h1, maskCols_apply]

/-- The reduction over the neighbour axis at `(a, f)` is the sum over the 64 slots. -/
private theorem summed_apply (w : FVec Ideal S4096x128 .f32) (nbb : Vec Ideal S1x64x64x1 .i32) (sc : Vec Ideal S1024x128 .f32)
    (mk : Vec Ideal S1x64x64x1 .f32) (a : Fin 64) (f : Fin 128) :
    summed w nbb sc mk (ix2 a f) = ∑ n : Fin 64, masked w nbb sc mk (ix3 a n f) := by
  unfold summed
  refine (Ideal.multiReduction_add_single (masked w nbb sc mk) 0x00000000#32 reduces_S64x64x128_S64x128 (.inl rfl) rfl
    (ix2 a f)).trans ?_
  refine Finset.sum_congr rfl fun n _ => congrArg _ (funext fun b => ?_)
  match b with
  | ⟨0, _⟩ => rfl
  | ⟨1, _⟩ => rfl
  | ⟨2, _⟩ => rfl

/-! ## The payload at `(0, a, o)` -/

theorem pay3_apply (w : FVec Ideal S4096x128 .f32) (nbb : Vec Ideal S1x64x64x1 .i32) (sc : Vec Ideal S1024x128 .f32)
    (mk : Vec Ideal S1x64x64x1 .f32) (Wout : Vec Ideal S128x128 .f32) (bout : Vec Ideal S128 .f32)
    (nbf : Fin 64 → Fin 64 → Fin 1024)
    (hnb : ∀ a n, nbb (ix4 (0 : Fin 1) a n (0 : Fin 1)) = BitVec.ofNat 32 (nbf a n).val) (a : Fin 64) (o : Fin 128) :
    k0_pay3 (F := Ideal) w nbb sc mk Wout bout (ix3 (0 : Fin 1) a o)
      = Cert.CFConv.ssp ((∑ f : Fin 128, (∑ n : Fin 64, (sc (ix2 (nbf a n) f) * w (ix2 (Cert.CFConv.row64 a n) f))
          * mk (ix4 (0 : Fin 1) a n (0 : Fin 1))) * Wout (ix2 f o)) + bout (ix1 o)) := by
  rw [pay3_eq]
  refine (shapeCast_apply _ shapeCasts_S64x128_S1x64x128 (ix3 (0 : Fin 1) a o) (ix2 a o) ?_).trans ?_
  · rw [Shape.rowMajor_val_two, Shape.rowMajor_val_three]
    show a.val * 128 + o.val = (0 * 64 + a.val) * 128 + o.val
    omega
  rw [sspV_apply, dense_apply]
  refine congrArg (fun s => Cert.CFConv.ssp (s + bout (ix1 o))) (Finset.sum_congr rfl fun f _ => ?_)
  rw [summed_apply]
  exact congrArg (· * Wout (ix2 f o)) (Finset.sum_congr rfl fun n _ => masked_apply w nbb sc mk nbf hnb a n f)

end Cert.CFConv.KBody
end
-- ==== Proof.KPieces.lean ====
/-
  What one run of the kernel's body leaves behind, as values of the blocks it was given.

  At a batch's first tile the body computes the projected features `x[b] · W_in2f` of the whole batch and stores them,
  whole, into the carried scratch; at every tile it reads that table back, gathers from it, and stores the tile's result
  block whole. So the scratch after a first-tile run is the first payload of the `x` block and the projection weights,
  and the output block after any run is the third payload over the second (the filter network) and the table — the one
  just stored at a first tile, the one carried in otherwise.
-/
import proofs.«408758_j22007412425372_2_alg».proof.Proof.Gen.KernelIdeal.Frame
import Idealize.ShloMosaic.Lib.Pipeline.Value
import Idealize.ShloMosaic.Lib.Tactic

noncomputable section

namespace Cert.CFConv.KPieces

open Cert.KernelIdeal Cert.KernelIdeal.Gen Idealize.ShloMosaic Idealize.ShloMosaic.TcCoe Idealize.SL.Sem

variable {F : FTy → Type} [FloatOps F]
variable (c : Dev nD) (i : grid0.Coords) (arg2 : Memref sig .tc .vmem S1x1024x128 .f32) (harg2 : arg2.IsWhole) (arg3 : Memref sig .tc .vmem S1x64x64x1 .i32) (harg3 : arg3.IsWhole) (arg4 : Memref sig .tc .vmem S1x64x64x50 .f32) (harg4 : arg4.IsWhole) (arg5 : Memref sig .tc .vmem S1x64x64x1 .f32) (harg5 : arg5.IsWhole) (arg6 : Memref sig .tc .vmem S50x128 .f32) (harg6 : arg6.IsWhole) (arg7 : Memref sig .tc .vmem S128 .f32) (harg7 : arg7.IsWhole) (arg8 : Memref sig .tc .vmem S128x128 .f32) (harg8 : arg8.IsWhole) (arg9 : Memref sig .tc .vmem S128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128 .f32) (harg12 : arg12.IsWhole) (arg13 : Memref sig .tc .vmem S1x64x128 .f32) (harg13 : arg13.IsWhole) (arg14 : Memref sig .tc .vmem S1024x128 .f32) (harg14 : arg14.IsWhole)
  (x0 : Vec F S1x1024x128 .f32) (x1 : Vec F S1x64x64x1 .i32) (x2 : Vec F S1x64x64x50 .f32) (x3 : Vec F S1x64x64x1 .f32) (x4 : Vec F S50x128 .f32) (x5 : Vec F S128 .f32) (x6 : Vec F S128x128 .f32) (x7 : Vec F S128 .f32) (x8 : Vec F S128x128 .f32) (x9 : Vec F S128x128 .f32) (x10 : Vec F S128 .f32)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A first-tile run leaves in the scratch the projected features of the batch: one whole store of the first payload. -/
theorem sout_A (hc0 : cond0_0 i) : sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = k0_pay1 x0 x8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x128) hz3, View.ld_unit_zero (S := S1x64x64x1) hz4, View.ld_unit_zero (S := S1x64x64x50) hz4, View.ld_unit_zero (S := S50x128) hz2, View.ld_unit_zero (S := S128) hz1, View.ld_unit_zero (S := S128x128) hz2, View.ld_unit_zero (S := S1x64x128) hz3, View.ld_unit_zero (S := S1024x128) hz2]

/-- A first-tile run leaves in the output block the third payload over the filter network's and the table it has just
    stored (the load of the scratch reads that store back). -/
theorem out_A (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = k0_pay3 (k0_pay2 x2 x4 x5 x6 x7) x1 (k0_pay1 x0 x8) x3 x9 x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x128) hz3, View.ld_unit_zero (S := S1x64x64x1) hz4, View.ld_unit_zero (S := S1x64x64x50) hz4, View.ld_unit_zero (S := S50x128) hz2, View.ld_unit_zero (S := S128) hz1, View.ld_unit_zero (S := S128x128) hz2, View.ld_unit_zero (S := S1x64x128) hz3, View.ld_unit_zero (S := S1024x128) hz2, View.readCov_unit_zero (S := S1024x128) _ hz2]

/-- A later-tile run leaves in the output block the third payload over the filter network's and the table carried in. -/
theorem out_B (hc0 : ¬cond0_0 i) (xs0 : Vec F S1024x128 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 = k0_pay3 (k0_pay2 x2 x4 x5 x6 x7) x1 xs0 x3 x9 x10 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S1x1024x128) hz3, View.ld_unit_zero (S := S1x64x64x1) hz4, View.ld_unit_zero (S := S1x64x64x50) hz4, View.ld_unit_zero (S := S50x128) hz2, View.ld_unit_zero (S := S128) hz1, View.ld_unit_zero (S := S128x128) hz2, View.ld_unit_zero (S := S1x64x128) hz3, View.ld_unit_zero (S := S1024x128) hz2]

end Cert.CFConv.KPieces

end
-- ==== Proof.KBlocks.lean ====
import proofs.«408758_j22007412425372_2_alg».proof.Proof.Gen.KernelIdeal.Value
import Idealize.ShloMosaic.Lib.Pipeline.Value
import Idealize.ShloMosaic.Lib.ValueIdx

/-!
# The input windows' blocks, read off the argument arrays

The grid is `[8, 16]`: point `t` is batch `t / 16` and tile `t % 16`. Window 0's block at `t` is the whole slab
`x[b]` of its batch; windows 1, 2, 3 hold the tile's 64 atoms (rows `64·(t % 16) … 64·(t % 16) + 63` of the batch) of the
neighbour indices, the filter inputs and the mask; windows 4 to 10 are whole parameter arrays. A block's coordinate on
an axis is always `index × size + coordinate inside the block`, and the index maps are decided once over the 128 grid
points. The neighbour indices and the mask reach the region with a trailing unit axis appended (a broadcast of the
argument to `[8, 1024, 64, 1]`), which reads back the argument at the three leading coordinates.
-/

noncomputable section

namespace Cert.CFConv.KBlocks
open Idealize.ShloMosaic Idealize.ShloMosaic.TcCoe Idealize.ShloMosaic.ValueIdx Idealize.SL.Sem Cert.KernelIdeal Cert.KernelIdeal.Gen
variable {F : FTy → Type} [FloatOps F] (m : (ℓ : Loc nD τ sig) → Buf (Elt F) ℓ)

/-- The batch of grid point `t` (16 tiles of 64 atoms per batch). -/
def bOf (t : Fin cfg0.N) : Fin 8 := ⟨t.val / 16, by have h := t.isLt; have : cfg0.N = 128 := N_0; omega⟩
/-- Atom `a` of point `t`'s tile, as an atom of the batch. -/
def aOf (t : Fin cfg0.N) (a : Fin 64) : Fin 1024 := ⟨(t.val % 16) * 64 + a.val, by have := a.isLt; omega⟩

abbrev blk0 (c : Dev nD) (t : Fin cfg0.N) : Vec F S1x1024x128 .f32 := iblk m c 0 t
abbrev blk1 (c : Dev nD) (t : Fin cfg0.N) : Vec F S1x64x64x1 .i32 := iblk m c 1 t
abbrev blk2 (c : Dev nD) (t : Fin cfg0.N) : Vec F S1x64x64x50 .f32 := iblk m c 2 t
abbrev blk3 (c : Dev nD) (t : Fin cfg0.N) : Vec F S1x64x64x1 .f32 := iblk m c 3 t
abbrev blk4 (c : Dev nD) (t : Fin cfg0.N) : Vec F S50x128 .f32 := iblk m c 4 t
abbrev blk5 (c : Dev nD) (t : Fin cfg0.N) : Vec F S128 .f32 := iblk m c 5 t
abbrev blk6 (c : Dev nD) (t : Fin cfg0.N) : Vec F S128x128 .f32 := iblk m c 6 t
abbrev blk7 (c : Dev nD) (t : Fin cfg0.N) : Vec F S128 .f32 := iblk m c 7 t
abbrev blk8 (c : Dev nD) (t : Fin cfg0.N) : Vec F S128x128 .f32 := iblk m c 8 t
abbrev blk9 (c : Dev nD) (t : Fin cfg0.N) : Vec F S128x128 .f32 := iblk m c 9 t
abbrev blk10 (c : Dev nD) (t : Fin cfg0.N) : Vec F S128 .f32 := iblk m c 10 t

/-! ## The printed index maps, decided over the grid -/

/-- Window 0's block index at point `t`: the batch on the leading axis, `0` on the other two. -/
theorem idx0 : ∀ t : Fin cfg0.N, win0_0.index t (0 : Fin 3) = t.val / 16
    ∧ win0_0.index t (1 : Fin 3) = 0 ∧ win0_0.index t (2 : Fin 3) = 0 :=
  (by decide +kernel : ∀ t : Fin grid0.N, _)
/-- Window 1's block index at point `t`: the batch, the tile, and `0` on the two trailing axes. -/
theorem idx1 : ∀ t : Fin cfg0.N, win0_1.index t (0 : Fin 4) = t.val / 16 ∧ win0_1.index t (1 : Fin 4) = t.val % 16
    ∧ win0_1.index t (2 : Fin 4) = 0 ∧ win0_1.index t (3 : Fin 4) = 0 :=
  (by decide +kernel : ∀ t : Fin grid0.N, _)
/-- Window 2's block index at point `t`: the batch, the tile, and `0` on the two trailing axes. -/
theorem idx2 : ∀ t : Fin cfg0.N, win0_2.index t (0 : Fin 4) = t.val / 16 ∧ win0_2.index t (1 : Fin 4) = t.val % 16
    ∧ win0_2.index t (2 : Fin 4) = 0 ∧ win0_2.index t (3 : Fin 4) = 0 :=
  (by decide +kernel : ∀ t : Fin grid0.N, _)
/-- Window 3's block index at point `t`: the batch, the tile, and `0` on the two trailing axes. -/
theorem idx3 : ∀ t : Fin cfg0.N, win0_3.index t (0 : Fin 4) = t.val / 16 ∧ win0_3.index t (1 : Fin 4) = t.val % 16
    ∧ win0_3.index t (2 : Fin 4) = 0 ∧ win0_3.index t (3 : Fin 4) = 0 :=
  (by decide +kernel : ∀ t : Fin grid0.N, _)
/-- Window 4 is its whole array at every point: block index `0` on both axes. -/
theorem idx4 : ∀ t : Fin cfg0.N, win0_4.index t (0 : Fin 2) = 0 ∧ win0_4.index t (1 : Fin 2) = 0 :=
  (by decide +kernel : ∀ t : Fin grid0.N, _)
/-- Window 5 is its whole array at every point: block index `0`. -/
theorem idx5 : ∀ t : Fin cfg0.N, win0_5.index t (0 : Fin 1) = 0 :=
  (by decide +kernel : ∀ t : Fin grid0.N, _)
/-- Window 6 is its whole array at every point: block index `0` on both axes. -/
theorem idx6 : ∀ t : Fin cfg0.N, win0_6.index t (0 : Fin 2) = 0 ∧ win0_6.index t (1 : Fin 2) = 0 :=
  (by decide +kernel : ∀ t : Fin grid0.N, _)
/-- Window 7 is its whole array at every point: block index `0`. -/
theorem idx7 : ∀ t : Fin cfg0.N, win0_7.index t (0 : Fin 1) = 0 :=
  (by decide +kernel : ∀ t : Fin grid0.N, _)
/-- Window 8 is its whole array at every point: block index `0` on both axes. -/
theorem idx8 : ∀ t : Fin cfg0.N, win0_8.index t (0 : Fin 2) = 0 ∧ win0_8.index t (1 : Fin 2) = 0 :=
  (by decide +kernel : ∀ t : Fin grid0.N, _)
/-- Window 9 is its whole array at every point: block index `0` on both axes. -/
theorem idx9 : ∀ t : Fin cfg0.N, win0_9.index t (0 : Fin 2) = 0 ∧ win0_9.index t (1 : Fin 2) = 0 :=
  (by decide +kernel : ∀ t : Fin grid0.N, _)
/-- Window 10 is its whole array at every point: block index `0`. -/
theorem idx10 : ∀ t : Fin cfg0.N, win0_10.index t (0 : Fin 1) = 0 :=
  (by decide +kernel : ∀ t : Fin grid0.N, _)

/-! ## The two arrays written before the region: a trailing unit axis appended to an argument -/

/-- When the region is entered, window 1's array is the neighbour-index argument broadcast to `[8, 1024, 64, 1]`. -/
theorem V_main_v0 (c : Dev nD) :
    (V m c main_v0 : S8x1024x64x1.Idx → Elt F .i32)
      = broadcastInDim S8x1024x64x1 ![0, 1, 2] Facts₀.bcast_S8x1024x64_S8x1024x64x1_0_1_2 (m ((c : Thread nD τ).loc main_arg2)) := by
  dsimp only [Gen.V, Gen.hostOps0]; after_results

/-- When the region is entered, window 3's array is the mask argument broadcast to `[8, 1024, 64, 1]`. -/
theorem V_main_v1 (c : Dev nD) :
    (V m c main_v1 : S8x1024x64x1.Idx → Elt F .f32)
      = broadcastInDim S8x1024x64x1 ![0, 1, 2] Facts₀.bcast_S8x1024x64_S8x1024x64x1_0_1_2 (m ((c : Thread nD τ).loc main_arg1)) := by
  dsimp only [Gen.V, Gen.hostOps0]; after_results

/-! ## What each block holds -/

/-- Window 0's block at point `t` is the slab `x[b]` of the point's batch. -/
theorem blk0_apply (c : Dev nD) (t : Fin cfg0.N) (r : Fin 1024) (k : Fin 128) :
    blk0 m c t (ix3 (0 : Fin 1) r k) = m ((c : Thread nD τ).loc main_arg0) (ix3 (bOf t) r k) := by
  obtain ⟨e0, e1, e2⟩ := idx0 t
  rw [← V_main_arg0 m c]
  show V m c main_arg0 (((cfg0.win 0).blk t).view.emb (ix3 (0 : Fin 1) r k)) = V m c main_arg0 (ix3 (bOf t) r k)
  refine congrArg _ (funext fun d => Fin.ext ?_)
  match d with
  | ⟨0, _⟩ => show win0_0.index t (0 : Fin 3) * 1 + 1 * (0 : Fin 1).val = t.val / 16; rw [e0]; simp
  | ⟨1, _⟩ => show win0_0.index t (1 : Fin 3) * 1024 + 1 * r.val = r.val; rw [e1]; omega
  | ⟨2, _⟩ => show win0_0.index t (2 : Fin 3) * 128 + 1 * k.val = k.val; rw [e2]; omega

/-- Window 1's block at point `t` holds the neighbour indices of the tile's atoms. -/
theorem blk1_apply (c : Dev nD) (t : Fin cfg0.N) (a n : Fin 64) :
    blk1 m c t (ix4 (0 : Fin 1) a n (0 : Fin 1)) = m ((c : Thread nD τ).loc main_arg2) (ix3 (bOf t) (aOf t a) n) := by
  obtain ⟨e0, e1, e2, e3⟩ := idx1 t
  have hi : ((cfg0.win 1).blk t).view.emb (ix4 (0 : Fin 1) a n (0 : Fin 1)) = (ix4 (bOf t) (aOf t a) n (0 : Fin 1) : S8x1024x64x1.Idx) := by
    funext d; apply Fin.ext
    match d with
    | ⟨0, _⟩ => show win0_1.index t (0 : Fin 4) * 1 + 1 * (0 : Fin 1).val = t.val / 16; rw [e0]; simp
    | ⟨1, _⟩ => show win0_1.index t (1 : Fin 4) * 64 + 1 * a.val = t.val % 16 * 64 + a.val; rw [e1]; omega
    | ⟨2, _⟩ => show win0_1.index t (2 : Fin 4) * 64 + 1 * n.val = n.val; rw [e2]; omega
    | ⟨3, _⟩ => show win0_1.index t (3 : Fin 4) * 1 + 1 * (0 : Fin 1).val = (0 : Fin 1).val; rw [e3]; simp
  show V m c main_v0 (((cfg0.win 1).blk t).view.emb (ix4 (0 : Fin 1) a n (0 : Fin 1))) = _
  rw [hi, V_main_v0 m c]
  refine broadcastInDim_apply _ _ _ (ix4 (bOf t) (aOf t a) n (0 : Fin 1)) (ix3 (bOf t) (aOf t a) n) ?_
  intro d
  match d with
  | ⟨0, _⟩ => show (bOf t).val = if (8 : ℕ) = 1 then 0 else (bOf t).val; rw [if_neg (by decide)]
  | ⟨1, _⟩ => show (aOf t a).val = if (1024 : ℕ) = 1 then 0 else (aOf t a).val; rw [if_neg (by decide)]
  | ⟨2, _⟩ => show n.val = if (64 : ℕ) = 1 then 0 else n.val; rw [if_neg (by decide)]

/-- Window 2's block at point `t` holds the filter inputs of the tile's atoms. -/
theorem blk2_apply (c : Dev nD) (t : Fin cfg0.N) (a n : Fin 64) (g : Fin 50) :
    blk2 m c t (ix4 (0 : Fin 1) a n g) = m ((c : Thread nD τ).loc main_arg3) (ix4 (bOf t) (aOf t a) n g) := by
  obtain ⟨e0, e1, e2, e3⟩ := idx2 t
  have hi : ((cfg0.win 2).blk t).view.emb (ix4 (0 : Fin 1) a n g) = (ix4 (bOf t) (aOf t a) n g : S8x1024x64x50.Idx) := by
    funext d; apply Fin.ext
    match d with
    | ⟨0, _⟩ => show win0_2.index t (0 : Fin 4) * 1 + 1 * (0 : Fin 1).val = t.val / 16; rw [e0]; simp
    | ⟨1, _⟩ => show win0_2.index t (1 : Fin 4) * 64 + 1 * a.val = t.val % 16 * 64 + a.val; rw [e1]; omega
    | ⟨2, _⟩ => show win0_2.index t (2 : Fin 4) * 64 + 1 * n.val = n.val; rw [e2]; omega
    | ⟨3, _⟩ => show win0_2.index t (3 : Fin 4) * 50 + 1 * g.val = g.val; rw [e3]; simp
  rw [← V_main_arg3 m c]
  show V m c main_arg3 (((cfg0.win 2).blk t).view.emb (ix4 (0 : Fin 1) a n g)) = _
  rw [hi]

/-- Window 3's block at point `t` holds the neighbour mask of the tile's atoms. -/
theorem blk3_apply (c : Dev nD) (t : Fin cfg0.N) (a n : Fin 64) :
    blk3 m c t (ix4 (0 : Fin 1) a n (0 : Fin 1)) = m ((c : Thread nD τ).loc main_arg1) (ix3 (bOf t) (aOf t a) n) := by
  obtain ⟨e0, e1, e2, e3⟩ := idx3 t
  have hi : ((cfg0.win 3).blk t).view.emb (ix4 (0 : Fin 1) a n (0 : Fin 1)) = (ix4 (bOf t) (aOf t a) n (0 : Fin 1) : S8x1024x64x1.Idx) := by
    funext d; apply Fin.ext
    match d with
    | ⟨0, _⟩ => show win0_3.index t (0 : Fin 4) * 1 + 1 * (0 : Fin 1).val = t.val / 16; rw [e0]; simp
    | ⟨1, _⟩ => show win0_3.index t (1 : Fin 4) * 64 + 1 * a.val = t.val % 16 * 64 + a.val; rw [e1]; omega
    | ⟨2, _⟩ => show win0_3.index t (2 : Fin 4) * 64 + 1 * n.val = n.val; rw [e2]; omega
    | ⟨3, _⟩ => show win0_3.index t (3 : Fin 4) * 1 + 1 * (0 : Fin 1).val = (0 : Fin 1).val; rw [e3]; simp
  show V m c main_v1 (((cfg0.win 3).blk t).view.emb (ix4 (0 : Fin 1) a n (0 : Fin 1))) = _
  rw [hi, V_main_v1 m c]
  refine broadcastInDim_apply _ _ _ (ix4 (bOf t) (aOf t a) n (0 : Fin 1)) (ix3 (bOf t) (aOf t a) n) ?_
  intro d
  match d with
  | ⟨0, _⟩ => show (bOf t).val = if (8 : ℕ) = 1 then 0 else (bOf t).val; rw [if_neg (by decide)]
  | ⟨1, _⟩ => show (aOf t a).val = if (1024 : ℕ) = 1 then 0 else (aOf t a).val; rw [if_neg (by decide)]
  | ⟨2, _⟩ => show n.val = if (64 : ℕ) = 1 then 0 else n.val; rw [if_neg (by decide)]

/-- Windows 4 to 10 hold their whole parameter array at every point. -/
theorem blk4_eq (c : Dev nD) (t : Fin cfg0.N) : blk4 m c t = m ((c : Thread nD τ).loc main_arg4) := by
  obtain ⟨e0, e1⟩ := idx4 t
  rw [← V_main_arg4 m c]
  funext y
  show V m c main_arg4 (((cfg0.win 4).blk t).view.emb y) = V m c main_arg4 y
  refine congrArg _ (funext fun d => Fin.ext ?_)
  match d with
  | ⟨0, _⟩ => show win0_4.index t (0 : Fin 2) * 50 + 1 * (y 0).val = (y 0).val; rw [e0]; omega
  | ⟨1, _⟩ => show win0_4.index t (1 : Fin 2) * 128 + 1 * (y 1).val = (y 1).val; rw [e1]; omega
theorem blk5_eq (c : Dev nD) (t : Fin cfg0.N) : blk5 m c t = m ((c : Thread nD τ).loc main_arg5) := by
  have e0 := idx5 t
  rw [← V_main_arg5 m c]
  funext y
  show V m c main_arg5 (((cfg0.win 5).blk t).view.emb y) = V m c main_arg5 y
  refine congrArg _ (funext fun d => Fin.ext ?_)
  match d with
  | ⟨0, _⟩ => show win0_5.index t (0 : Fin 1) * 128 + 1 * (y 0).val = (y 0).val; rw [e0]; omega
theorem blk6_eq (c : Dev nD) (t : Fin cfg0.N) : blk6 m c t = m ((c : Thread nD τ).loc main_arg6) := by
  obtain ⟨e0, e1⟩ := idx6 t
  rw [← V_main_arg6 m c]
  funext y
  show V m c main_arg6 (((cfg0.win 6).blk t).view.emb y) = V m c main_arg6 y
  refine congrArg _ (funext fun d => Fin.ext ?_)
  match d with
  | ⟨0, _⟩ => show win0_6.index t (0 : Fin 2) * 128 + 1 * (y 0).val = (y 0).val; rw [e0]; omega
  | ⟨1, _⟩ => show win0_6.index t (1 : Fin 2) * 128 + 1 * (y 1).val = (y 1).val; rw [e1]; omega
theorem blk7_eq (c : Dev nD) (t : Fin cfg0.N) : blk7 m c t = m ((c : Thread nD τ).loc main_arg7) := by
  have e0 := idx7 t
  rw [← V_main_arg7 m c]
  funext y
  show V m c main_arg7 (((cfg0.win 7).blk t).view.emb y) = V m c main_arg7 y
  refine congrArg _ (funext fun d => Fin.ext ?_)
  match d with
  | ⟨0, _⟩ => show win0_7.index t (0 : Fin 1) * 128 + 1 * (y 0).val = (y 0).val; rw [e0]; omega
theorem blk8_eq (c : Dev nD) (t : Fin cfg0.N) : blk8 m c t = m ((c : Thread nD τ).loc main_arg8) := by
  obtain ⟨e0, e1⟩ := idx8 t
  rw [← V_main_arg8 m c]
  funext y
  show V m c main_arg8 (((cfg0.win 8).blk t).view.emb y) = V m c main_arg8 y
  refine congrArg _ (funext fun d => Fin.ext ?_)
  match d with
  | ⟨0, _⟩ => show win0_8.index t (0 : Fin 2) * 128 + 1 * (y 0).val = (y 0).val; rw [e0]; omega
  | ⟨1, _⟩ => show win0_8.index t (1 : Fin 2) * 128 + 1 * (y 1).val = (y 1).val; rw [e1]; omega
theorem blk9_eq (c : Dev nD) (t : Fin cfg0.N) : blk9 m c t = m ((c : Thread nD τ).loc main_arg9) := by
  obtain ⟨e0, e1⟩ := idx9 t
  rw [← V_main_arg9 m c]
  funext y
  show V m c main_arg9 (((cfg0.win 9).blk t).view.emb y) = V m c main_arg9 y
  refine congrArg _ (funext fun d => Fin.ext ?_)
  match d with
  | ⟨0, _⟩ => show win0_9.index t (0 : Fin 2) * 128 + 1 * (y 0).val = (y 0).val; rw [e0]; omega
  | ⟨1, _⟩ => show win0_9.index t (1 : Fin 2) * 128 + 1 * (y 1).val = (y 1).val; rw [e1]; omega
theorem blk10_eq (c : Dev nD) (t : Fin cfg0.N) : blk10 m c t = m ((c : Thread nD τ).loc main_arg10) := by
  have e0 := idx10 t
  rw [← V_main_arg10 m c]
  funext y
  show V m c main_arg10 (((cfg0.win 10).blk t).view.emb y) = V m c main_arg10 y
  refine congrArg _ (funext fun d => Fin.ext ?_)
  match d with
  | ⟨0, _⟩ => show win0_10.index t (0 : Fin 1) * 128 + 1 * (y 0).val = (y 0).val; rw [e0]; omega

end Cert.CFConv.KBlocks
end
-- ==== Proof.KScratch.lean ====
/-
  The carried table and the tile's result, point by point.

  The kernel keeps the projected features `x[b] · W_in2f` of the current batch in a scratch that it fills at the batch's
  first tile and only reads at the other fifteen. By induction on the grid point, after ANY point the scratch holds that
  table for the point's own batch (two points of one batch stage the same `x` block, and the weights' block is the whole
  array at every point). Hence what every point leaves in the output's staging buffer is one and the same expression of
  the point's blocks: the third payload over the filter network's payload and that table.
-/
import proofs.«408758_j22007412425372_2_alg».proof.Proof.KPieces
import proofs.«408758_j22007412425372_2_alg».proof.Proof.KBlocks
import proofs.«408758_j22007412425372_2_alg».proof.Proof.Gen.KernelIdeal.Value
import Idealize.ShloMosaic.Lib.ValueIdx

noncomputable section

namespace Cert.CFConv.KScratch
open Cert.KernelIdeal Cert.KernelIdeal.Gen Idealize.ShloMosaic Idealize.ShloMosaic.TcCoe Idealize.ShloMosaic.ValueIdx Idealize.SL.Sem
open Cert.CFConv.KBlocks Cert.CFConv.KPieces
variable {F : FTy → Type} [FloatOps F] (m : (ℓ : Loc nD τ sig) → Buf (Elt F) ℓ)

/-- Two points of one batch stage the same block of `x`: the block is the batch's whole [1024,128] slab. -/
theorem blk0_congr (c : Dev nD) (t t' : Fin cfg0.N) (h : bOf t = bOf t') : blk0 m c t = blk0 m c t' := by
  funext j
  obtain ⟨z, r, k, rfl⟩ : ∃ (z : Fin 1) (r : Fin 1024) (k : Fin 128), j = ix3 z r k := ⟨j 0, j 1, j 2, eq_ix3 j⟩
  obtain rfl : z = 0 := Subsingleton.elim _ _
  rw [blk0_apply, blk0_apply, h]

/-- The projection weights' block is the whole array at every point. -/
theorem blk8_congr (c : Dev nD) (t t' : Fin cfg0.N) : blk8 m c t = blk8 m c t' := by rw [blk8_eq, blk8_eq]

/-- THE CARRIED TABLE: after any point the scratch holds the projected features of that point's batch — stored at the
    batch's first tile, carried unchanged through its other fifteen. By induction on the point. -/
theorem scratch_eq (c : Dev nD) : ∀ (n : ℕ) (h : n < cfg0.N),
    (outsAt0 m c n h).2 = k0_pay1 (blk0 m c ⟨n, h⟩) (blk8 m c ⟨n, h⟩)
  | 0, h => by
    rw [outsAt0_A m c ⟨0, h⟩ rfl]; dsimp only
    exact sout_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) (ms0_9 ⟨0, h⟩) (hs0_9 ⟨0, h⟩) (ms0_10 ⟨0, h⟩) (hs0_10 ⟨0, h⟩) (ms0_11 ⟨0, h⟩) (hs0_11 ⟨0, h⟩) scM0_0 (Memref.isWhole_whole _) (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) ((hcond0_0 ⟨0, h⟩).mpr rfl)
  | n + 1, h => by
    have hN : cfg0.N = 128 := N_0
    by_cases h0 : (n + 1) % 16 = 0
    · rw [outsAt0_A m c ⟨n + 1, h⟩ h0]; dsimp only
      exact sout_A (F := F) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) scM0_0 (Memref.isWhole_whole _) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) ((hcond0_0 ⟨n + 1, h⟩).mpr h0)
    · rw [outsAt0_B m c ⟨n + 1, h⟩ h0]; dsimp only
      unfold sout0_B_0
      show (outsAt0 m c n _).2 = _
      rw [scratch_eq c n (Nat.lt_of_succ_lt h)]
      rw [blk0_congr m c ⟨n, Nat.lt_of_succ_lt h⟩ ⟨n + 1, h⟩ (Fin.ext (by show n / 16 = (n + 1) / 16; omega)),
        blk8_congr m c ⟨n, Nat.lt_of_succ_lt h⟩ ⟨n + 1, h⟩]

/-- THE TILE'S RESULT: after any point the output's staging buffer holds the third payload over the filter network's
    payload of the tile's blocks and the projected features of the tile's batch. -/
theorem after_eq (c : Dev nD) (t : Fin cfg0.N) :
    (outsAt0 m c t.val t.isLt).1 = k0_pay3 (k0_pay2 (blk2 m c t) (blk4 m c t) (blk5 m c t) (blk6 m c t) (blk7 m c t)) (blk1 m c t)
      (k0_pay1 (blk0 m c t) (blk8 m c t)) (blk3 m c t) (blk9 m c t) (blk10 m c t) := by
  have hN : cfg0.N = 128 := N_0
  by_cases h0 : t.val % 16 = 0
  · rw [outsAt0_A m c t h0]; dsimp only
    exact out_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) ((hcond0_0 t).mpr h0)
  · rw [outsAt0_B m c t h0]; dsimp only
    have hpos : 0 < t.val := Nat.pos_of_ne_zero (fun hz => h0 (by rw [hz]))
    rw [out_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (fun hh => h0 ((hcond0_0 t).mp hh)) _]
    rw [scratch_eq m c (t.val - 1) (Nat.lt_of_le_of_lt (Nat.sub_le _ _) t.isLt)]
    rw [blk0_congr m c ⟨t.val - 1, Nat.lt_of_le_of_lt (Nat.sub_le _ _) t.isLt⟩ t (Fin.ext (by show (t.val - 1) / 16 = t.val / 16; omega)),
      blk8_congr m c ⟨t.val - 1, Nat.lt_of_le_of_lt (Nat.sub_le _ _) t.isLt⟩ t]

end Cert.CFConv.KScratch

end
-- ==== Proof.KFinal.lean ====
/-
  From the tiles to the whole result: the kernel's result array is the specification's function of the arguments.

  Point `t` of the [8, 16] grid handles batch `t / 16` and the 64 atoms of tile `t % 16`. What it writes back is the
  specification on those atoms (`tile_eq`): the one-hot product against the carried table picks the projected features
  of each neighbour's row, the filter network and the mask are read at the tile's rows of their arrays, and the
  neighbour sum, the output layer and the shifted softplus are the same sums in the same order. The output window's
  block at `t` is rows `64·(t % 16) …` of batch `t / 16`, every point writes its block back, and the 128 blocks tile
  the [8, 1024, 128] array, so the array after the run is the specification everywhere. The neighbour words enter only
  through the hypothesis that each is the word of a row number below 1024.
-/
import proofs.«408758_j22007412425372_2_alg».proof.Proof.Spec
import proofs.«408758_j22007412425372_2_alg».proof.Proof.KPay12
import proofs.«408758_j22007412425372_2_alg».proof.Proof.KPay3
import proofs.«408758_j22007412425372_2_alg».proof.Proof.KScratch
import proofs.«408758_j22007412425372_2_alg».proof.Proof.Gen.KernelIdeal.Value
import Idealize.ShloMosaic.PureOps.Ideal.Laws
import Idealize.ShloMosaic.Lib.Pipeline.Value
import Idealize.ShloMosaic.Lib.ValueIdx

noncomputable section

namespace Cert.CFConv.KFinal
open Cert.KernelIdeal Cert.KernelIdeal.Gen Idealize.ShloMosaic Idealize.ShloMosaic.TcCoe Idealize.ShloMosaic.ValueIdx Idealize.SL.Sem
open Idealize.ShloMosaic.Pipeline (Dat)
open Cert.CFConv.KBlocks Cert.CFConv.KScratch Cert.CFConv.KBody

variable (m : (ℓ : Loc nD τ sig) → Buf (Elt Ideal) ℓ) (ρ : Dev nD → PrngReg)
variable (nb : Dev nD → (⟨3, ![8, 1024, 64]⟩ : Shape).Idx → Fin 1024)

/-- The specification's result of the argument arrays as launched, on core `c`. -/
abbrev G (c : Dev nD) : S8x1024x128.Idx → Elt Ideal .f32 :=
  Cert.CFConv.out (m ((c : Thread nD τ).loc main_arg0)) (m ((c : Thread nD τ).loc main_arg1)) (nb c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- THE TILE: what the body leaves for point `t` is the specification on the tile's 64 atoms: the gather from the carried
    table picks the neighbour's projected row, the filter network and the mask are read at the tile's rows, and the rest
    is the same sums in the same order. -/
theorem tile_eq (c : Dev nD) (hnb : ∀ j, (m ((c : Thread nD τ).loc main_arg2)) j = BitVec.ofNat 32 (nb c j).val) (t : Fin cfg0.N) :
    k0_pay3 (F := Ideal) (k0_pay2 (blk2 m c t) (blk4 m c t) (blk5 m c t) (blk6 m c t) (blk7 m c t)) (blk1 m c t)
        (k0_pay1 (blk0 m c t) (blk8 m c t)) (blk3 m c t) (blk9 m c t) (blk10 m c t)
      = fun j : S1x64x128.Idx => G m nb c (ix3 (bOf t) (aOf t (j 1)) (j 2)) := by
  funext j
  obtain ⟨z, a, o, rfl⟩ : ∃ (z : Fin 1) (a : Fin 64) (o : Fin 128), j = ix3 z a o := ⟨j 0, j 1, j 2, eq_ix3 j⟩
  obtain rfl : z = 0 := Subsingleton.elim _ _
  show _ = G m nb c (ix3 (bOf t) (aOf t a) o)
  rw [pay3_apply _ _ _ _ _ _ (fun a n => nb c (ix3 (bOf t) (aOf t a) n))
    (fun a n => (blk1_apply m c t a n).trans (hnb _)) a o]
  simp only [pay1_apply, pay2_apply, blk0_apply, blk2_apply, blk3_apply, blk4_eq, blk5_eq, blk6_eq, blk7_eq, blk8_eq,
    blk9_eq, blk10_eq]
  rfl

/-- The output window's printed index map over the grid: block (batch, tile, 0). -/
theorem idx_facts11 : ∀ t : Fin cfg0.N, win0_11.index t (0 : Fin 3) = t.val / 16 ∧ win0_11.index t (1 : Fin 3) = t.val % 16
    ∧ win0_11.index t (2 : Fin 3) = 0 :=
  (by decide +kernel : ∀ t : Fin grid0.N, _)

/-- WHAT POINT `t` WRITES BACK is block `t` of the specification's result. -/
theorem flushed_eq (c : Dev nD) (hnb : ∀ j, (m ((c : Thread nD τ).loc main_arg2)) j = BitVec.ofNat 32 (nb c j).val) (t : Fin cfg0.N) :
    (dats m 0 c).flushed 11 t = ((cfg0.win 11).blk t).view.read (Elt Ideal) (G m nb c) := by
  rw [Cert.KernelIdeal.Value.flushed11, after_eq, tile_eq m nb c hnb t]
  obtain ⟨e0, e1, e2⟩ := idx_facts11 t
  funext j
  show G m nb c (ix3 (bOf t) (aOf t (j 1)) (j 2)) = G m nb c (((cfg0.win 11).blk t).view.emb j)
  congr 1
  funext d; apply Fin.ext
  match d with
  | ⟨0, _⟩ => show t.val / 16 = win0_11.index t (0 : Fin 3) * 1 + 1 * (j 0).val; have hj : (j 0).val < 1 := (j 0).isLt; omega
  | ⟨1, _⟩ => show t.val % 16 * 64 + (j 1).val = win0_11.index t (1 : Fin 3) * 64 + 1 * (j 1).val; omega
  | ⟨2, _⟩ => show (j 2).val = win0_11.index t (2 : Fin 3) * 128 + 1 * (j 2).val; omega

/-- An index of the result array is in point `t`'s block iff each coordinate is in the block's range on its axis. -/
theorem mem_blk11 (t : Fin cfg0.N) (i : S8x1024x128.Idx) :
    i ∈ ((cfg0.win 11).blk t).view.set ↔ ∀ a : Fin 3, win0_11.index t a * S1x64x128.size a ≤ (i a).val ∧ (i a).val < win0_11.index t a * S1x64x128.size a + S1x64x128.size a := by
  show i ∈ ((View.whole main_v2).slice (win0_11.rect t)).set ↔ _
  rw [View.set_slice_whole, Rect.mem_set_unit]
  exact Iff.rfl

/-- Every index of the result array lies in the block of the point of its batch and its atom's tile. -/
theorem cover (i : S8x1024x128.Idx) : ∃ t : Fin cfg0.N, (cfg0.win 11).flush t = true ∧ i ∈ ((cfg0.win 11).blk t).view.set := by
  have hN : cfg0.N = 128 := N_0
  have h0 : (i 0).val < 8 := (i 0).isLt
  have h1 : (i 1).val < 1024 := (i 1).isLt
  have h2 : (i 2).val < 128 := (i 2).isLt
  refine ⟨⟨(i 0).val * 16 + (i 1).val / 64, by omega⟩, flush0_11 _, ?_⟩
  rw [mem_blk11]
  obtain ⟨e0, e1, e2⟩ := idx_facts11 ⟨(i 0).val * 16 + (i 1).val / 64, by omega⟩
  have v : (⟨(i 0).val * 16 + (i 1).val / 64, by omega⟩ : Fin cfg0.N).val = (i 0).val * 16 + (i 1).val / 64 := rfl
  rw [v] at e0 e1
  intro a
  match a with
  | ⟨0, _⟩ => show win0_11.index _ (0 : Fin 3) * 1 ≤ (i 0).val ∧ (i 0).val < win0_11.index _ (0 : Fin 3) * 1 + 1; omega
  | ⟨1, _⟩ => show win0_11.index _ (1 : Fin 3) * 64 ≤ (i 1).val ∧ (i 1).val < win0_11.index _ (1 : Fin 3) * 64 + 64; omega
  | ⟨2, _⟩ => show win0_11.index _ (2 : Fin 3) * 128 ≤ (i 2).val ∧ (i 2).val < win0_11.index _ (2 : Fin 3) * 128 + 128; omega

/-- THE ARRAY after the run is the specification's result: the 128 blocks tile it. -/
theorem final (c : Dev nD) (hnb : ∀ j, (m ((c : Thread nD τ).loc main_arg2)) j = BitVec.ofNat 32 (nb c j).val) :
    (dats m 0 c).arrAt 11 cfg0.N = G m nb c :=
  (dats m 0 c).arrAt_eq_of_cover 11 (G m nb c) (fun t _ => flushed_eq m nb c hnb t) (cover)

/-- The kernel's run, read: the result array at the specification's function of the arguments, the arguments unchanged. -/
theorem run (hnb : ∀ (c : Dev nD) (j : (⟨3, ![8, 1024, 64]⟩ : Shape).Idx), (m ((c : Thread nD τ).loc main_arg2)) j = BitVec.ofNat 32 (nb c j).val) :
    θ_run defs (onTc (τ := τ) (main (F := Ideal))) ⟨m, fun _ => 0, ρ⟩ fun r => ∀ c : Dev nD,
      r.2.mem ((c : Thread nD τ).loc main_v2) = G m nb c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m nb c (hnb c)), (h c).2⟩)
    (Cert.KernelIdeal.Value.run_blocks m ρ)

end Cert.CFConv.KFinal

end
-- ==== Proof.LibBatchRowGather.lean ====
/-
  A batched gather of whole rows, read at a result index.

  Taking `x[b, idx[b, n], :]` from an array `x : [B, S, H]` at positions `idx : [B, N]` prints as a gather over the
  positions as `[B, N, 1]`: the operand's axis 1 collapsed and start-indexed, its axis 0 a batching axis paired with the
  start indices' axis 0, the offset axis 2 carrying the whole last axis (slice sizes `[1, 1, H]`), the index vector on
  axis 2. Result element `(b, n, h)` is the operand at `(b, r, h)`, where `r` is the start `idx[b, n, 0]` read signed
  and clamped into `[0, S − 1]`: the batching axis takes its coordinate from the result's batch coordinate `b`, the
  offset axis from the result's last coordinate `h`, and only the middle axis from the start index.
-/
import Idealize.ShloMosaic.Lib.ValueIdx

noncomputable section

namespace Idealize.ShloMosaic.LibBatchRowGather

open Idealize.ShloMosaic Idealize.ShloMosaic.ValueIdx

/-- THE READ: element `(b, n, h)` of the gather is the operand at `(b, r, h)`, `r` the start `idx[b, n, 0]` read signed
    and clamped into `[0, S − 1]`. -/
theorem batchRowGather_apply {α : Type} {B S H N w : Nat}
    (d : GatherDims ⟨3, ![B, S, H]⟩ ⟨3, ![B, N, 1]⟩ ⟨3, ![B, N, H]⟩)
    (hoff : d.offsetDims = [2]) (hcoll : d.collapsedSliceDims = [1]) (hob : d.operandBatchingDims = [0])
    (hsb : d.startIndicesBatchingDims = [0]) (hsim : d.startIndexMap = [1]) (hivd : d.indexVectorDim = 2)
    (x : (⟨3, ![B, S, H]⟩ : Shape).Idx → α) (idx : IVec ⟨3, ![B, N, 1]⟩ w) (b : Fin B) (n : Fin N) (h : Fin H)
    (hS : 0 < S) :
    Host.gather d x idx (ix3 b n h)
      = x (ix3 b (⟨min (idx (ix3 b n (0 : Fin 1))).toInt.toNat (S - 1), by omega⟩ : Fin S) h) := by
  -- with the six lists known, the dimension numbers are a literal record but for the slice sizes
  obtain ⟨od, cd, ob, sb, sm, iv, ss, wf⟩ := d
  dsimp only at hoff hcoll hob hsb hsim hivd
  subst hoff hcoll hob hsb hsim hivd
  unfold Host.gather
  congr 1
  funext a
  refine Fin.ext ?_
  simp only [GatherDims.operandIdx]
  match a with
  | ⟨0, _⟩ =>
    -- the batching axis: no start, no offset; the coordinate is the result's on the paired batch axis, `b`
    rw [GatherDims.start_batching _ _ _ _ List.mem_cons_self,
      GatherDims.offCoord_eq_zero _ _ _ (fun hm => ((GatherDims.mem_sKept _ _).mp hm).2 List.mem_cons_self),
      Nat.zero_add, Nat.add_zero]
    rfl
  | ⟨1, _⟩ =>
    -- the collapsed axis: the start is the entry `(b, n, 0)`, read signed, clamped to `S − 1` (the slice is one wide)
    have hsl : ss 1 = 1 :=
      GatherDims.slice_collapsed ⟨[2], [1], [0], [0], [1], 2, ss, wf⟩ 1 List.mem_cons_self
    have hnb : (1 : Fin 3) ∉ ([0] : List (Fin 3)) := by decide
    rw [GatherDims.batchCoord_eq_zero _ _ _ hnb,
      GatherDims.offCoord_eq_zero _ _ _ (fun hm => ((GatherDims.mem_sKept _ _).mp hm).1 List.mem_cons_self)]
    simp only [Nat.add_zero]
    unfold GatherDims.start
    rw [dif_pos (by exact List.mem_cons_self)]
    show min (idx _).toInt.toNat (S - ss 1) = min (idx (ix3 b n (0 : Fin 1))).toInt.toNat (S - 1)
    rw [hsl]
    congr 3
    congr 1
    funext c
    refine Fin.ext ?_
    match c with
    | ⟨0, _⟩ => rfl
    | ⟨1, _⟩ => rfl
    | ⟨2, _⟩ => rfl
  | ⟨2, _⟩ =>
    -- the offset axis: not start-indexed, not batching; the coordinate is the result's on the offset axis, `h`
    have hns : (2 : Fin 3) ∉ ([1] : List (Fin 3)) := by decide
    have hnb : (2 : Fin 3) ∉ ([0] : List (Fin 3)) := by decide
    rw [GatherDims.batchCoord_eq_zero _ _ _ hnb]
    unfold GatherDims.start
    rw [dif_neg (by exact hns)]
    simp only [Nat.add_zero, Nat.zero_add]
    unfold GatherDims.offCoord
    split
    · rfl
    · rename_i hno
      exact absurd ((GatherDims.mem_sKept _ _).mpr ⟨hns, hnb⟩) hno

/-- THE READ IN RANGE: when the start `idx[b, n, 0]`, read signed, is a row `k` of the operand, the clamp is the
    identity and element `(b, n, h)` of the gather is the operand at `(b, k, h)`. -/
theorem batchRowGather_apply_of_lt {α : Type} {B S H N w : Nat}
    (d : GatherDims ⟨3, ![B, S, H]⟩ ⟨3, ![B, N, 1]⟩ ⟨3, ![B, N, H]⟩)
    (hoff : d.offsetDims = [2]) (hcoll : d.collapsedSliceDims = [1]) (hob : d.operandBatchingDims = [0])
    (hsb : d.startIndicesBatchingDims = [0]) (hsim : d.startIndexMap = [1]) (hivd : d.indexVectorDim = 2)
    (x : (⟨3, ![B, S, H]⟩ : Shape).Idx → α) (idx : IVec ⟨3, ![B, N, 1]⟩ w) (b : Fin B) (n : Fin N) (h : Fin H)
    (k : Fin S) (hk : (idx (ix3 b n (0 : Fin 1))).toInt = (k.val : ℤ)) :
    Host.gather d x idx (ix3 b n h) = x (ix3 b k h) := by
  have hS : 0 < S := Nat.lt_of_le_of_lt (Nat.zero_le _) k.isLt
  rw [batchRowGather_apply d hoff hcoll hob hsb hsim hivd x idx b n h hS]
  have e : (⟨min (idx (ix3 b n (0 : Fin 1))).toInt.toNat (S - 1), by omega⟩ : Fin S) = k := by
    apply Fin.ext
    show min (idx (ix3 b n (0 : Fin 1))).toInt.toNat (S - 1) = k.val
    rw [hk, Int.toNat_natCast]
    have := k.isLt
    omega
  rw [e]

end Idealize.ShloMosaic.LibBatchRowGather

end
-- ==== Proof.RefSide.lean ====
/-
  The reference computes the specification's function.

  Read one operation at a time, the reference's result at batch `b`, atom `a`, output feature `o` is the shifted
  softplus of the output dense layer applied to the masked sum over the neighbour slots, and each stage is the
  specification's: the filter network (two dense layers with a shifted softplus between them), the neighbour's features
  through the input projection, their product with the mask summed over the 64 slots. Two stages depend on the
  neighbour words' values. The gather reads row `nb[b,a,n]` of batch `b`, because a row number below 1024 is the same
  word read signed, is not negative (so the wrap-around of negative positions leaves it alone), and needs no clamp. The
  in-bounds bit, a conjunction over the index vector's one entry of `0 ≤ r` and `r ≤ 1023`, is set everywhere, so the
  NaN fill for out-of-bounds positions is never read. In the softplus, a value never differs from itself, subtracting or
  adding the zero word changes nothing, `log1p y` is `log (1 + y)`, and `|v|` is `max v (−v)`.
-/
import proofs.«408758_j22007412425372_2_alg».proof.Proof.Spec
import proofs.«408758_j22007412425372_2_alg».proof.Proof.RefReadP
import proofs.«408758_j22007412425372_2_alg».proof.Proof.LibBatchRowGather
import Idealize.ShloMosaic.PureOps.Ideal.Laws
import Idealize.ShloMosaic.Lib.ValueIdx
import Idealize.ShloMosaic.Lib.StableHlo.Predicate

noncomputable section

namespace Cert.CFConv.Ref
open Idealize.ShloMosaic Idealize.ShloMosaic.ValueIdx Cert.ReferenceIdeal

section Stages
open Cert.ReferenceIdeal.ReadP Cert.CFConv

/-- The reference's softplus, shifted: the self-comparison never holds, subtracting and adding the zero word change
    nothing, and the two summands are the specification's in the other order. -/
private theorem ssp_ref (z : Ideal .f32) :
    FloatOps.subf
      (Scalar.select
        (FloatOps.cmpf .une (FloatOps.subf z (FloatOps.ofBits (F := Ideal) .f32 0x00000000#32)) (FloatOps.subf z (FloatOps.ofBits (F := Ideal) .f32 0x00000000#32)))
        (FloatOps.addf z (FloatOps.ofBits (F := Ideal) .f32 0x00000000#32))
        (FloatOps.addf (FloatOps.maximumf z (FloatOps.ofBits (F := Ideal) .f32 0x00000000#32))
          (FloatOps.hostUnary .log1p (FloatOps.hostUnary .exp (FloatOps.hostNegf (FloatOps.hostAbsf
            (FloatOps.subf z (FloatOps.ofBits (F := Ideal) .f32 0x00000000#32))))))))
      (FloatOps.ofBits (F := Ideal) .f32 0x3F317218#32)
      = ssp z := by
  unfold ssp
  simp only [Ideal.cmpf_def, Ideal.subf_def, Ideal.addf_def, Ideal.maximumf_def, Ideal.ofBits_def, Ideal.ofBits_zero_f32,
    sub_zero, add_zero, Ideal.hostUnary_log1p_def, Ideal.hostUnary_exp_def, Ideal.hostNegf_def, Ideal.hostAbsf_def,
    Ideal.negf_def, Ideal.absf_def, Ideal.log1p]
  have h : Ideal.cmp .une z z = 0#1 := by simp [Ideal.cmp]
  rw [h, ValueIdx.select_zero, add_comm]

private theorem v6_eq (x3 : FVec Ideal ⟨4, ![8, 1024, 64, 50]⟩ .f32) (x4 : FVec Ideal ⟨2, ![50, 128]⟩ .f32) (x5 : FVec Ideal ⟨1, ![128]⟩ .f32)
    (j : S8x1024x64x128.Idx) :
    val_main_v6 (F := Ideal) x3 x4 x5 j = ssp (val_main_v3 (F := Ideal) x3 x4 x5 j) := by
  rw [val_main_v6_apply, val_main_v4_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, val_main_v5_apply, val_main_cst_apply]
  exact ssp_ref _

/-- The first dense layer at an index: the contraction over the 50 basis functions plus the bias. -/
private theorem v3_eq (x3 : FVec Ideal ⟨4, ![8, 1024, 64, 50]⟩ .f32) (x4 : FVec Ideal ⟨2, ![50, 128]⟩ .f32) (x5 : FVec Ideal ⟨1, ![128]⟩ .f32)
    (b : Fin 8) (a : Fin 1024) (n : Fin 64) (k : Fin 128) :
    val_main_v3 (F := Ideal) x3 x4 x5 (ix4 b a n k) = (∑ g : Fin 50, x3 (ix4 b a n g) * x4 (ix2 g k)) + x5 (ix1 k) := by
  rw [val_main_v3_apply, val_main_v0_apply, val_main_v2_apply, val_main_v1_apply]
  have e1 : ∀ g : Fin 50, lidx_main_v0 (ix4 b a n k) g = ix4 b a n g := fun g => funext fun d => Fin.ext (by
    match d with | ⟨0, _⟩ => rfl | ⟨1, _⟩ => rfl | ⟨2, _⟩ => rfl | ⟨3, _⟩ => rfl)
  have e2 : ∀ g : Fin 50, ridx_main_v0 (ix4 b a n k) g = ix2 g k := fun g => funext fun d => Fin.ext (by
    match d with | ⟨0, _⟩ => rfl | ⟨1, _⟩ => rfl)
  have e3 : idx_main_v1 (idx_main_v2 (ix4 b a n k)) = ix1 k := funext fun d => Fin.ext (by
    match d with | ⟨0, _⟩ => rfl)
  rw [e3]
  simp only [e1, e2, Ideal.addf_def]

/-- The hidden layer at an index. -/
private theorem v6_hid (x3 : FVec Ideal ⟨4, ![8, 1024, 64, 50]⟩ .f32) (x4 : FVec Ideal ⟨2, ![50, 128]⟩ .f32) (x5 : FVec Ideal ⟨1, ![128]⟩ .f32)
    (b : Fin 8) (a : Fin 1024) (n : Fin 64) (k : Fin 128) :
    val_main_v6 (F := Ideal) x3 x4 x5 (ix4 b a n k) = hid x3 x4 x5 b a n k := by
  rw [v6_eq, v3_eq]; rfl

/-- The filter at an index: the hidden layer through the second dense layer. -/
private theorem v10_filt (x3 : FVec Ideal ⟨4, ![8, 1024, 64, 50]⟩ .f32) (x4 : FVec Ideal ⟨2, ![50, 128]⟩ .f32) (x5 : FVec Ideal ⟨1, ![128]⟩ .f32)
    (x6 : FVec Ideal ⟨2, ![128, 128]⟩ .f32) (x7 : FVec Ideal ⟨1, ![128]⟩ .f32)
    (b : Fin 8) (a : Fin 1024) (n : Fin 64) (f : Fin 128) :
    val_main_v10 (F := Ideal) x3 x4 x5 x6 x7 (ix4 b a n f) = filt x3 x4 x5 x6 x7 b a n f := by
  rw [val_main_v10_apply, val_main_v7_apply, val_main_v9_apply, val_main_v8_apply]
  have e1 : ∀ k : Fin 128, lidx_main_v7 (ix4 b a n f) k = ix4 b a n k := fun k => funext fun d => Fin.ext (by
    match d with | ⟨0, _⟩ => rfl | ⟨1, _⟩ => rfl | ⟨2, _⟩ => rfl | ⟨3, _⟩ => rfl)
  have e2 : ∀ k : Fin 128, ridx_main_v7 (ix4 b a n f) k = ix2 k f := fun k => funext fun d => Fin.ext (by
    match d with | ⟨0, _⟩ => rfl | ⟨1, _⟩ => rfl)
  have e3 : idx_main_v8 (idx_main_v9 (ix4 b a n f)) = ix1 f := funext fun d => Fin.ext (by
    match d with | ⟨0, _⟩ => rfl)
  rw [e3]
  simp only [e1, e2, v6_hid, Ideal.addf_def]
  rfl

/-- Row `a · 64 + n` of the 65536 flattened neighbour positions of one batch. -/
private def row (a : Fin 1024) (n : Fin 64) : Fin 65536 :=
  ⟨a.val * 64 + n.val, by have := a.isLt; have := n.isLt; omega⟩

/-- A row number below 1024, as a 32-bit word, has that value. -/
private theorem toNat_row (k : Fin 1024) : (BitVec.ofNat 32 k.val).toNat = k.val := by
  rw [BitVec.toNat_ofNat]; exact Nat.mod_eq_of_lt (by have := k.isLt; omega)

/-- The start index after the wrap of negative positions: a row number is not negative, so it is the word itself. -/
private theorem start_eq (x2 : IVec ⟨3, ![8, 1024, 64]⟩ 32) (nb : (⟨3, ![8, 1024, 64]⟩ : Shape).Idx → Fin 1024)
    (hnb : ∀ j, x2 j = BitVec.ofNat 32 (nb j).val) (j : S8x65536x1.Idx) :
    val_main_call1_v4 (F := Ideal) x2 j = BitVec.ofNat 32 (nb (idx_main_v11 j)).val := by
  rw [val_main_call1_v4_apply, val_main_call1_v1_apply, val_main_v11_apply, val_main_call1_v0_apply,
    val_main_call1_c_apply, hnb]
  have h : IntOp.cmpi .slt (BitVec.ofNat 32 (nb (idx_main_v11 j)).val) 0#32 = 0#1 := by
    apply eq_zero_of_ne_one
    rw [StableHlo.Predicate.slt_iff_toNat (by rw [toNat_row]; have := (nb (idx_main_v11 j)).isLt; omega) (by decide)]
    exact Nat.not_lt_zero _
  rw [h, select_zero]

/-- The in-bounds bit before the fold: a row number lies between 0 and 1023. -/
private theorem inb_eq (x2 : IVec ⟨3, ![8, 1024, 64]⟩ 32) (nb : (⟨3, ![8, 1024, 64]⟩ : Shape).Idx → Fin 1024)
    (hnb : ∀ j, x2 j = BitVec.ofNat 32 (nb j).val) (j : S8x65536x1.Idx) :
    val_main_call1_v10 (F := Ideal) x2 j = 1#1 := by
  rw [val_main_call1_v10_apply, val_main_call1_v6_apply, val_main_call1_v9_apply, start_eq x2 nb hnb,
    val_main_call1_v5_apply, val_main_call1_c_2_apply, val_main_call1_v8_apply, val_main_call1_v7_apply,
    val_main_call1_c_1_apply]
  have hk := (nb (idx_main_v11 j)).isLt
  have h1 : IntOp.cmpi .sge (BitVec.ofNat 32 (nb (idx_main_v11 j)).val) 0#32 = 1#1 :=
    (StableHlo.Predicate.sge_iff_toNat (by rw [toNat_row]; omega) (by decide)).mpr (Nat.zero_le _)
  have h2 : IntOp.cmpi .sle (BitVec.ofNat 32 (nb (idx_main_v11 j)).val) 1023#32 = 1#1 :=
    (StableHlo.Predicate.sle_iff_toNat (by rw [toNat_row]; omega) (by decide)).mpr (by
      rw [toNat_row]; show (nb (idx_main_v11 j)).val ≤ 1023; omega)
  rw [h1, h2]; rfl

/-- A left fold of the conjunction over words that are all one, from one, is one. -/
private theorem foldl_andi_one {ι : Type} (x : ι → BitVec 1) (hx : ∀ i, x i = 1#1) (l : List ι) :
    l.foldl (fun r i => IntOp.andi r (x i)) 1#1 = 1#1 := by
  induction l with
  | nil => rfl
  | cons a l ih =>
    have h : IntOp.andi 1#1 (x a) = 1#1 := by rw [hx a]; rfl
    simp only [List.foldl_cons, h]; exact ih

/-- The in-bounds bit, folded over the index vector's one entry, is one at every position. -/
private theorem inb_all (x2 : IVec ⟨3, ![8, 1024, 64]⟩ 32) (nb : (⟨3, ![8, 1024, 64]⟩ : Shape).Idx → Fin 1024)
    (hnb : ∀ j, x2 j = BitVec.ofNat 32 (nb j).val) (q : S8x65536.Idx) :
    val_main_call1_v11 (F := Ideal) x2 q = 1#1 := by
  unfold val_main_call1_v11
  rw [Host.reduce_eq_foldl, val_main_call1_c_3_apply]
  exact foldl_andi_one (val_main_call1_v10 (F := Ideal) x2) (inb_eq x2 nb hnb) _

/-- Flattened position `a · 64 + n` of batch `b` is neighbour slot `n` of atom `a`. -/
private theorem idx11 (b : Fin 8) (a : Fin 1024) (n : Fin 64) :
    idx_main_v11 (ix3 b (row a n) (0 : Fin 1)) = ix3 b a n := by
  funext d; apply Fin.ext
  have hb := b.isLt; have ha := a.isLt; have hn := n.isLt
  match d with
  | ⟨0, _⟩ => show ((b.val * 65536 + (a.val * 64 + n.val)) * 1 + 0) / 65536 = b.val; omega
  | ⟨1, _⟩ => show ((b.val * 65536 + (a.val * 64 + n.val)) * 1 + 0) / 64 % 1024 = a.val; omega
  | ⟨2, _⟩ => show ((b.val * 65536 + (a.val * 64 + n.val)) * 1 + 0) % 64 = n.val; omega

/-- The gather at a position: the features of the neighbour's row. -/
private theorem gather_eq (x0 : FVec Ideal ⟨3, ![8, 1024, 128]⟩ .f32) (x2 : IVec ⟨3, ![8, 1024, 64]⟩ 32)
    (nb : (⟨3, ![8, 1024, 64]⟩ : Shape).Idx → Fin 1024) (hnb : ∀ j, x2 j = BitVec.ofNat 32 (nb j).val)
    (b : Fin 8) (a : Fin 1024) (n : Fin 64) (c : Fin 128) :
    val_main_call1_v12 (F := Ideal) x0 x2 (ix3 b (row a n) c) = x0 (ix3 b (nb (ix3 b a n)) c) := by
  unfold val_main_call1_v12
  refine LibBatchRowGather.batchRowGather_apply_of_lt gather_S8x1024x128_S8x65536x1_S8x65536x128_2_1_0_0_1_2_11128
    rfl rfl rfl rfl rfl rfl x0 (val_main_call1_v4 (F := Ideal) x2) b (row a n) c (nb (ix3 b a n)) ?_
  rw [start_eq x2 nb hnb, idx11,
    StableHlo.Predicate.toInt_ofNat_small _ (by have := (nb (ix3 b a n)).isLt; omega)]

/-- take_along_axis's result at a position: the in-bounds bit is set, so it is the gather and the fill is not read. -/
private theorem v12_eq (x0 : FVec Ideal ⟨3, ![8, 1024, 128]⟩ .f32) (x2 : IVec ⟨3, ![8, 1024, 64]⟩ 32)
    (nb : (⟨3, ![8, 1024, 64]⟩ : Shape).Idx → Fin 1024) (hnb : ∀ j, x2 j = BitVec.ofNat 32 (nb j).val)
    (b : Fin 8) (a : Fin 1024) (n : Fin 64) (c : Fin 128) :
    val_main_v12 (F := Ideal) x0 x2 (ix3 b (row a n) c) = x0 (ix3 b (nb (ix3 b a n)) c) := by
  rw [val_main_v12_apply, val_main_call1_v13_apply, inb_all x2 nb hnb, select_one, gather_eq x0 x2 nb hnb]

/-- The reshape back to atoms and neighbour slots reads flattened position `a · 64 + n`. -/
private theorem idx13 (b : Fin 8) (a : Fin 1024) (n : Fin 64) (c : Fin 128) :
    idx_main_v13 (ix4 b a n c) = ix3 b (row a n) c := by
  funext d; apply Fin.ext
  have hb := b.isLt; have ha := a.isLt; have hn := n.isLt; have hc := c.isLt
  match d with
  | ⟨0, _⟩ => show (((b.val * 1024 + a.val) * 64 + n.val) * 128 + c.val) / 8388608 = b.val; omega
  | ⟨1, _⟩ => show (((b.val * 1024 + a.val) * 64 + n.val) * 128 + c.val) / 128 % 65536 = a.val * 64 + n.val; omega
  | ⟨2, _⟩ => show (((b.val * 1024 + a.val) * 64 + n.val) * 128 + c.val) % 128 = c.val; omega

/-- The gathered features at an index. -/
private theorem v13_eq (x0 : FVec Ideal ⟨3, ![8, 1024, 128]⟩ .f32) (x2 : IVec ⟨3, ![8, 1024, 64]⟩ 32)
    (nb : (⟨3, ![8, 1024, 64]⟩ : Shape).Idx → Fin 1024) (hnb : ∀ j, x2 j = BitVec.ofNat 32 (nb j).val)
    (b : Fin 8) (a : Fin 1024) (n : Fin 64) (c : Fin 128) :
    val_main_v13 (F := Ideal) x0 x2 (ix4 b a n c) = x0 (ix3 b (nb (ix3 b a n)) c) := by
  rw [val_main_v13_apply, idx13, v12_eq x0 x2 nb hnb]

/-- The gathered features through the input projection. -/
private theorem v14_proj (x0 : FVec Ideal ⟨3, ![8, 1024, 128]⟩ .f32) (x2 : IVec ⟨3, ![8, 1024, 64]⟩ 32)
    (x8 : FVec Ideal ⟨2, ![128, 128]⟩ .f32)
    (nb : (⟨3, ![8, 1024, 64]⟩ : Shape).Idx → Fin 1024) (hnb : ∀ j, x2 j = BitVec.ofNat 32 (nb j).val)
    (b : Fin 8) (a : Fin 1024) (n : Fin 64) (f : Fin 128) :
    val_main_v14 (F := Ideal) x0 x2 x8 (ix4 b a n f) = proj x0 x8 b (nb (ix3 b a n)) f := by
  rw [val_main_v14_apply]
  have e1 : ∀ k : Fin 128, lidx_main_v14 (ix4 b a n f) k = ix4 b a n k := fun k => funext fun d => Fin.ext (by
    match d with | ⟨0, _⟩ => rfl | ⟨1, _⟩ => rfl | ⟨2, _⟩ => rfl | ⟨3, _⟩ => rfl)
  have e2 : ∀ k : Fin 128, ridx_main_v14 (ix4 b a n f) k = ix2 k f := fun k => funext fun d => Fin.ext (by
    match d with | ⟨0, _⟩ => rfl | ⟨1, _⟩ => rfl)
  simp only [e1, e2, v13_eq x0 x2 nb hnb]
  rfl

/-- The masked sum over the neighbour slots at an index; the sum starts from the zero word. -/
private theorem v19_agg (x0 : FVec Ideal ⟨3, ![8, 1024, 128]⟩ .f32) (x1 : FVec Ideal ⟨3, ![8, 1024, 64]⟩ .f32)
    (x2 : IVec ⟨3, ![8, 1024, 64]⟩ 32) (x3 : FVec Ideal ⟨4, ![8, 1024, 64, 50]⟩ .f32) (x4 : FVec Ideal ⟨2, ![50, 128]⟩ .f32)
    (x5 : FVec Ideal ⟨1, ![128]⟩ .f32) (x6 : FVec Ideal ⟨2, ![128, 128]⟩ .f32) (x7 : FVec Ideal ⟨1, ![128]⟩ .f32)
    (x8 : FVec Ideal ⟨2, ![128, 128]⟩ .f32)
    (nb : (⟨3, ![8, 1024, 64]⟩ : Shape).Idx → Fin 1024) (hnb : ∀ j, x2 j = BitVec.ofNat 32 (nb j).val)
    (b : Fin 8) (a : Fin 1024) (f : Fin 128) :
    val_main_v19 (F := Ideal) x0 x1 x2 x3 x4 x5 x6 x7 x8 (ix3 b a f) = agg x0 x1 nb x3 x4 x5 x6 x7 x8 b a f := by
  rw [val_main_v19_apply, val_main_cst_0_apply, Ideal.ofBits_def, Ideal.ofBits_zero_f32, zero_add]
  unfold agg
  refine Finset.sum_congr rfl fun n _ => ?_
  have e : idx_main_v19 (ix3 b a f) n = ix4 b a n f := funext fun d => Fin.ext (by
    match d with | ⟨0, _⟩ => rfl | ⟨1, _⟩ => rfl | ⟨2, _⟩ => rfl | ⟨3, _⟩ => rfl)
  have e' : idx_main_v16 (idx_main_v17 (ix4 b a n f)) = ix3 b a n := funext fun d => Fin.ext (by
    match d with | ⟨0, _⟩ => rfl | ⟨1, _⟩ => rfl | ⟨2, _⟩ => rfl)
  rw [e, val_main_v18_apply, val_main_v15_apply, val_main_v17_apply, val_main_v16_apply, e',
    v14_proj x0 x2 x8 nb hnb, v10_filt]
  rfl

/-- The output dense layer at an index. -/
private theorem v23_eq (x0 : FVec Ideal ⟨3, ![8, 1024, 128]⟩ .f32) (x1 : FVec Ideal ⟨3, ![8, 1024, 64]⟩ .f32)
    (x2 : IVec ⟨3, ![8, 1024, 64]⟩ 32) (x3 : FVec Ideal ⟨4, ![8, 1024, 64, 50]⟩ .f32) (x4 : FVec Ideal ⟨2, ![50, 128]⟩ .f32)
    (x5 : FVec Ideal ⟨1, ![128]⟩ .f32) (x6 : FVec Ideal ⟨2, ![128, 128]⟩ .f32) (x7 : FVec Ideal ⟨1, ![128]⟩ .f32)
    (x8 x9 : FVec Ideal ⟨2, ![128, 128]⟩ .f32) (x10 : FVec Ideal ⟨1, ![128]⟩ .f32)
    (nb : (⟨3, ![8, 1024, 64]⟩ : Shape).Idx → Fin 1024) (hnb : ∀ j, x2 j = BitVec.ofNat 32 (nb j).val)
    (b : Fin 8) (a : Fin 1024) (o : Fin 128) :
    val_main_v23 (F := Ideal) x0 x1 x2 x3 x4 x5 x6 x7 x8 x9 x10 (ix3 b a o)
      = (∑ f : Fin 128, agg x0 x1 nb x3 x4 x5 x6 x7 x8 b a f * x9 (ix2 f o)) + x10 (ix1 o) := by
  rw [val_main_v23_apply, val_main_v20_apply, val_main_v22_apply, val_main_v21_apply]
  have e1 : ∀ f : Fin 128, lidx_main_v20 (ix3 b a o) f = ix3 b a f := fun f => funext fun d => Fin.ext (by
    match d with | ⟨0, _⟩ => rfl | ⟨1, _⟩ => rfl | ⟨2, _⟩ => rfl)
  have e2 : ∀ f : Fin 128, ridx_main_v20 (ix3 b a o) f = ix2 f o := fun f => funext fun d => Fin.ext (by
    match d with | ⟨0, _⟩ => rfl | ⟨1, _⟩ => rfl)
  have e3 : idx_main_v21 (idx_main_v22 (ix3 b a o)) = ix1 o := funext fun d => Fin.ext (by
    match d with | ⟨0, _⟩ => rfl)
  rw [e3]
  simp only [e1, e2, v19_agg x0 x1 x2 x3 x4 x5 x6 x7 x8 nb hnb, Ideal.addf_def]

/-- The result is the shifted softplus of the output dense layer. -/
private theorem v26_eq (x0 : FVec Ideal ⟨3, ![8, 1024, 128]⟩ .f32) (x1 : FVec Ideal ⟨3, ![8, 1024, 64]⟩ .f32)
    (x2 : IVec ⟨3, ![8, 1024, 64]⟩ 32) (x3 : FVec Ideal ⟨4, ![8, 1024, 64, 50]⟩ .f32) (x4 : FVec Ideal ⟨2, ![50, 128]⟩ .f32)
    (x5 : FVec Ideal ⟨1, ![128]⟩ .f32) (x6 : FVec Ideal ⟨2, ![128, 128]⟩ .f32) (x7 : FVec Ideal ⟨1, ![128]⟩ .f32)
    (x8 x9 : FVec Ideal ⟨2, ![128, 128]⟩ .f32) (x10 : FVec Ideal ⟨1, ![128]⟩ .f32) (j : S8x1024x128.Idx) :
    val_main_v26 (F := Ideal) x0 x1 x2 x3 x4 x5 x6 x7 x8 x9 x10 j
      = ssp (val_main_v23 (F := Ideal) x0 x1 x2 x3 x4 x5 x6 x7 x8 x9 x10 j) := by
  rw [val_main_v26_apply, val_main_v24_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, val_main_call2_cst_apply, val_main_v25_apply, val_main_cst_1_apply]
  exact ssp_ref _

end Stages

theorem ref_eq
    (x0 : FVec Ideal ⟨3, ![8, 1024, 128]⟩ .f32) (x1 : FVec Ideal ⟨3, ![8, 1024, 64]⟩ .f32) (x2 : IVec ⟨3, ![8, 1024, 64]⟩ 32)
    (x3 : FVec Ideal ⟨4, ![8, 1024, 64, 50]⟩ .f32) (x4 : FVec Ideal ⟨2, ![50, 128]⟩ .f32) (x5 : FVec Ideal ⟨1, ![128]⟩ .f32)
    (x6 : FVec Ideal ⟨2, ![128, 128]⟩ .f32) (x7 : FVec Ideal ⟨1, ![128]⟩ .f32) (x8 x9 : FVec Ideal ⟨2, ![128, 128]⟩ .f32)
    (x10 : FVec Ideal ⟨1, ![128]⟩ .f32)
    (nb : (⟨3, ![8, 1024, 64]⟩ : Shape).Idx → Fin 1024) (hnb : ∀ j, x2 j = BitVec.ofNat 32 (nb j).val) :
    Cert.ReferenceIdeal.ReadP.val_main_v26 (F := Ideal) x0 x1 x2 x3 x4 x5 x6 x7 x8 x9 x10
      = Cert.CFConv.out x0 x1 nb x3 x4 x5 x6 x7 x8 x9 x10 := by
  funext i
  obtain ⟨b, a, o, rfl⟩ : ∃ (b : Fin 8) (a : Fin 1024) (o : Fin 128), i = ix3 b a o := ⟨i 0, i 1, i 2, eq_ix3 i⟩
  rw [v26_eq, v23_eq x0 x1 x2 x3 x4 x5 x6 x7 x8 x9 x10 nb hnb, Cert.CFConv.out_ix3]
  rfl

end Cert.CFConv.Ref
end
-- ==== Proof.lean ====
/-
  A SchNet continuous-filter convolution, kernel against reference, over the extended reals.

  Both programs compute, for batch `b`, atom `a` and output feature `o`,

      out[b,a,o] = ssp (Σ_f (Σ_n (Σ_c x[b, nb[b,a,n], c] · Win[c,f]) · filt[b,a,n,f] · mask[b,a,n]) · Wout[f,o] + bout[o]),
      filt[b,a,n,f] = Σ_k ssp (Σ_g fij[b,a,n,g] · W1[g,k] + b1[k]) · W2[k,f] + b2[f],

  with `ssp z = log (1 + exp (−|z|)) + max z 0 − c` the shifted softplus (Proof/Spec.lean states it as one function of
  the argument arrays). They differ in how they get there.

  The reference gathers the neighbours' rows of `x` (`take_along_axis`: a negative index wrapped, an index outside the
  array answered by a fill), projects the gathered rows by `Win`, and spells the softplus as `max z 0 + log1p (exp (−|z − 0|))`
  behind a test of `z − 0` against itself, which no extended real fails. The kernel projects the WHOLE batch once,
  `x[b] · Win`, at the batch's first tile of 64 atoms, keeps that table in a scratch across the batch's sixteen tiles, and
  gathers from the table by a one-hot matrix product: row `r` of the one-hot matrix is 1 exactly where the column number
  equals the neighbour word. Since `0 · z = 0` and `1 · z = z` for every extended real, that product IS the table's row
  `nb` — provided the word is a row number. Outside `0 ≤ nb < 1024` the two programs part (the kernel's one-hot row is
  all zero; the reference wraps or fills), so the precondition asks every neighbour index to be in the range of the axis
  it indexes. Nothing else is needed: the two sides are the same sums of the same products in the same order, so no
  distributive law and hence no finiteness enters.

  The kernel's side is read off its run tile by tile (Proof/KPieces.lean: what one run of the body leaves; Proof/KScratch.lean:
  the carried table by induction on the grid point; Proof/KBlocks.lean: each window's block as entries of the argument
  arrays; Proof/KPay12.lean, Proof/KPay3.lean: the body's arithmetic at an index; Proof/KFinal.lean: the 128 blocks tile
  the result). The reference's side is its run read one operation at a time (Proof/RefSide.lean), the gather by the
  general lemma of Proof/LibBatchRowGather.lean. Proof/PreRange.lean reads the index range out of the precondition.
  Here the three frames, the (empty) idealization ledger and the two runs side by side are put together.
-/
import proofs.«408758_j22007412425372_2_alg».proof.Defs
import proofs.«408758_j22007412425372_2_alg».proof.Proof.Gen.Kernel
import proofs.«408758_j22007412425372_2_alg».proof.Proof.Gen.Kernel.Skeleton
import proofs.«408758_j22007412425372_2_alg».proof.Proof.Gen.Kernel.Launch
import proofs.«408758_j22007412425372_2_alg».proof.Proof.Gen.Kernel.Points
import proofs.«408758_j22007412425372_2_alg».proof.Proof.Gen.Kernel.Frame
import proofs.«408758_j22007412425372_2_alg».proof.Proof.Gen.KernelIdeal
import proofs.«408758_j22007412425372_2_alg».proof.Proof.Gen.KernelIdeal.Skeleton
import proofs.«408758_j22007412425372_2_alg».proof.Proof.Gen.KernelIdeal.Launch
import proofs.«408758_j22007412425372_2_alg».proof.Proof.Gen.KernelIdeal.Points
import proofs.«408758_j22007412425372_2_alg».proof.Proof.Gen.KernelIdeal.Frame
import proofs.«408758_j22007412425372_2_alg».proof.Proof.Gen.KernelIdeal.Value
import proofs.«408758_j22007412425372_2_alg».proof.Proof.Gen.ReferenceIdeal
import proofs.«408758_j22007412425372_2_alg».proof.Proof.Gen.Pre_finite_inputs
import proofs.«408758_j22007412425372_2_alg».proof.Proof.RefRunP
import proofs.«408758_j22007412425372_2_alg».proof.Proof.RefReadP
import proofs.«408758_j22007412425372_2_alg».proof.Proof.PreRange
import proofs.«408758_j22007412425372_2_alg».proof.Proof.KFinal
import proofs.«408758_j22007412425372_2_alg».proof.Proof.RefSide
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run with the result dropped
    exact fun m ρ _ => (θ_run Cert.ReferenceIdeal.defs _ _).mono (fun _ h c => (h c).2)
      (Cert.ReferenceIdeal.ValueP.run (F := Ideal) m ρ)
  · -- both runs end at the specification's function of arguments that agree
    intro m ρ m' ρ' hpre hagree
    have hr : ∀ c : Dev Cert.KernelIdeal.nD, ∀ j, ∃ k : Fin 1024,
        m ((c.tc : Thread Cert.KernelIdeal.nD Cert.KernelIdeal.τ).loc Cert.KernelIdeal.main_arg2) j = BitVec.ofNat 32 k.val :=
      fun c => Cert.CFConv.PreRange.nbr_in_range _ _ _ _ _ _ _ _ _ _ _ (hpre c)
    choose nb hnb using hr
    refine ⟨fun c => Cert.CFConv.KFinal.G m nb c, Cert.CFConv.KFinal.run m ρ nb hnb, ?_⟩
    refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v26_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2]
    exact Cert.CFConv.Ref.ref_eq _ _ _ _ _ _ _ _ _ _ _ (nb c) (hnb c)⟩

end Cert.Proof

end
